-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v56_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000x3x128 : Shape := ⟨3, ![200000, 3, 128]⟩
abbrev S200000 : Shape := ⟨1, ![200000]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S200000x3x128 : S_.BroadcastsInDim S200000x3x128 (![] : Fin 0 → Fin S200000x3x128.rank)
  reducesTo_S200000x3x128_S_d0_1_2 : S200000x3x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S200000x128 .f32) (main_arg1 : FVec F S200000x3x128 .f32) (main_arg2 : IVec S200000 32) (main_arg3 : FVec F S128 .f32) (main_arg4 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x3x128 .f32 := Host.absf main_arg1
  let main_cst_0 : FVec F S_ .f32 := constant S_ .f32 0x7F800000#32
  let main_v5 : FVec F S200000x3x128 .f32 := broadcastInDim S200000x3x128 ![] bcast_S_S200000x3x128 main_cst_0
  let main_v6 : IVec S200000x3x128 1 := cmpf .olt main_v4 main_v5
  let main_c_1 : IVec S_ 1 := constantI S_ 1 1#1
  let main_v7 : IVec S_ 1 := (fun x v => Host.reduce IntOp.andi x v reducesTo_S200000x3x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S200000x128 : Shape := ⟨2, ![200000, 128]⟩
abbrev S200000x3x128 : Shape := ⟨3, ![200000, 3, 128]⟩
abbrev S200000 : Shape := ⟨1, ![200000]⟩
abbrev S128 : Shape := ⟨1, ![128]⟩
abbrev S200000x1 : Shape := ⟨2, ![200000, 1]⟩
abbrev S2000x128 : Shape := ⟨2, ![2000, 128]⟩
abbrev S2000x3x128 : Shape := ⟨3, ![2000, 3, 128]⟩
abbrev S2000x1 : Shape := ⟨2, ![2000, 1]⟩
abbrev S2000 : Shape := ⟨1, ![2000]⟩
abbrev S_ : Shape := ⟨0, ![]⟩
abbrev S512 : Shape := ⟨1, ![512]⟩
abbrev S200000x1x1 : Shape := ⟨3, ![200000, 1, 1]⟩
abbrev S2000x1x1 : Shape := ⟨3, ![2000, 1, 1]⟩
abbrev S1x128 : Shape := ⟨2, ![1, 128]⟩

abbrev nBuf : Space → Nat
  | .hbm => 80
  | .vmem => 26
  | .smem => 0
  | _ => 0

abbrev bufTy : (tb : Table) → Fin (tcTables nBuf tb) → BufTy
  | .hbm, ⟨0, _⟩ => ⟨S200000x128, .f32⟩
  | .hbm, ⟨1, _⟩ => ⟨S200000x3x128, .f32⟩
  | .hbm, ⟨2, _⟩ => ⟨S200000, .i32⟩
  | .hbm, ⟨3, _⟩ => ⟨S128, .f32⟩
  | .hbm, ⟨4, _⟩ => ⟨S128, .f32⟩
  | .hbm, ⟨5, _⟩ => ⟨S200000x1, .f32⟩
  | .hbm, ⟨6, _⟩ => ⟨S200000x1, .f32⟩
  | .hbm, ⟨7, _⟩ => ⟨S200000x1, .f32⟩
  | .hbm, ⟨8, _⟩ => ⟨S200000, .f32⟩
  | .hbm, ⟨9, _⟩ => ⟨S200000, .f32⟩
  | .hbm, ⟨10, _⟩ => ⟨S200000, .f32⟩
  | .hbm, ⟨11, _⟩ => ⟨S_, .f32⟩
  | .hbm, ⟨12, _⟩ => ⟨S200000, .f32⟩
  | .hbm, ⟨13, _⟩ => ⟨S_, .f32⟩
  | .hbm, ⟨14, _⟩ => ⟨S512, .f32⟩
  | .hbm, ⟨15, _⟩ => ⟨S200000x1, .i32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S200000x1, .i32⟩
  | .hbm, ⟨23, _⟩ => ⟨S512, .f32⟩
  | .hbm, ⟨24, _⟩ => ⟨S512, .f32⟩
  | .hbm, ⟨25, _⟩ => ⟨S_, .i32⟩
  | .hbm, ⟨26, _⟩ => ⟨S200000, .i32⟩
  | .hbm, ⟨27, _⟩ => ⟨S200000, .i1⟩
  | .hbm, ⟨28, _⟩ => ⟨S_, .i32⟩
  | .hbm, ⟨29, _⟩ => ⟨S200000, .i32⟩
  | .hbm, ⟨30, _⟩ => ⟨S200000, .i32⟩
  | .hbm, ⟨31, _⟩ => ⟨S200000, .i32⟩
  | .hbm, ⟨32, _⟩ => ⟨S200000x1, .i32⟩
  | .hbm, ⟨33, _⟩ => ⟨S200000, .f32⟩
  | .hbm, ⟨34, _⟩ => ⟨S_, .f32⟩
  | .hbm, ⟨35, _⟩ => ⟨S200000, .f32⟩
  | .hbm, ⟨36, _⟩ => ⟨S200000, .f32⟩
  | .hbm, ⟨37, _⟩ => ⟨S200000, .f32⟩
  | .hbm, ⟨38, _⟩ => ⟨S200000, .f32⟩
  | .hbm, ⟨39, _⟩ => ⟨S200000, .f32⟩
  | .hbm, ⟨40, _⟩ => ⟨S200000, .f32⟩
  | .hbm, ⟨41, _⟩ => ⟨S_, .f32⟩
  | .hbm, ⟨42, _⟩ => ⟨S512, .f32⟩
  | .hbm, ⟨43, _⟩ => ⟨S200000x1, .i32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S200000x1, .i32⟩
  | .hbm, ⟨52, _⟩ => ⟨S512, .f32⟩
  | .hbm, ⟨53, _⟩ => ⟨S512, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S_, .i32⟩
  | .hbm, ⟨58, _⟩ => ⟨S200000, .i32⟩
  | .hbm, ⟨59, _⟩ => ⟨S200000, .i1⟩
  | .hbm, ⟨60, _⟩ => ⟨S_, .i32⟩
  | .hbm, ⟨61, _⟩ => ⟨S200000, .i32⟩
  | .hbm, ⟨62, _⟩ => ⟨S200000, .i32⟩
  | .hbm, ⟨63, _⟩ => ⟨S200000, .i32⟩
  | .hbm, ⟨64, _⟩ => ⟨S200000x1, .i32⟩
  | .hbm, ⟨65, _⟩ => ⟨S200000, .f32⟩
  | .hbm, ⟨66, _⟩ => ⟨S_, .i32⟩
  | .hbm, ⟨67, _⟩ => ⟨S200000, .i32⟩
  | .hbm, ⟨68, _⟩ => ⟨S200000, .i1⟩
  | .hbm, ⟨69, _⟩ => ⟨S_, .i32⟩
  | .hbm, ⟨70, _⟩ => ⟨S200000, .i32⟩
  | .hbm, ⟨71, _⟩ => ⟨S200000, .i32⟩
  | .hbm, ⟨72, _⟩ => ⟨S200000, .i32⟩
  | .hbm, ⟨73, _⟩ => ⟨S200000x1, .i32⟩
  | .hbm, ⟨74, _⟩ => ⟨S200000, .f32⟩
  | .hbm, ⟨75, _⟩ => ⟨S200000x1, .f32⟩
  | .hbm, ⟨76, _⟩ => ⟨S200000x1, .f32⟩
  | .hbm, ⟨77, _⟩ => ⟨S200000x1x1, .f32⟩
  | .hbm, ⟨78, _⟩ => ⟨S200000x128, .f32⟩
  | .hbm, ⟨79, _⟩ => ⟨S200000x3x128, .f32⟩
  | .local _ .vmem, ⟨0, _⟩ => ⟨S2000x128, .f32⟩
  | .local _ .vmem, ⟨1, _⟩ => ⟨S2000x128, .f32⟩
  | .local _ .vmem, ⟨2, _⟩ => ⟨S2000x3x128, .f32⟩
  | .local _ .vmem, ⟨3, _⟩ => ⟨S2000x3x128, .f32⟩
  | .local _ .vmem, ⟨4, _⟩ => ⟨S2000x1, .f32⟩
  | .local _ .vmem, ⟨5, _⟩ => ⟨S2000x1, .f32⟩
  | .local _ .vmem, ⟨6, _⟩ => ⟨S2000x1, .f32⟩
  | .local _ .vmem, ⟨7, _⟩ => ⟨S2000x1, .f32⟩
  | .local _ .vmem, ⟨8, _⟩ => ⟨S2000x1, .f32⟩
  | .local _ .vmem, ⟨9, _⟩ => ⟨S2000x1, .f32⟩
  | .local _ .vmem, ⟨10, _⟩ => ⟨S2000x128, .f32⟩
  | .local _ .vmem, ⟨11, _⟩ => ⟨S2000x128, .f32⟩
  | .local _ .vmem, ⟨12, _⟩ => ⟨S2000x3x128, .f32⟩
  | .local _ .vmem, ⟨13, _⟩ => ⟨S2000x3x128, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S2000x1, .f32⟩
  | .local _ .vmem, ⟨18, _⟩ => ⟨S2000x1x1, .f32⟩
  | .local _ .vmem, ⟨19, _⟩ => ⟨S2000x1x1, .f32⟩
  | .local _ .vmem, ⟨20, _⟩ => ⟨S128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | .local _ .vmem, ⟨24, _⟩ => ⟨S2000x3x128, .f32⟩
  | .local _ .vmem, ⟨25, _⟩ => ⟨S2000x3x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_11 : Ref sig .tc := ⟨.hbm, 66, rfl⟩
abbrev main_v46 : Ref sig .tc := ⟨.hbm, 67, rfl⟩
abbrev main_v47 : Ref sig .tc := ⟨.hbm, 68, rfl⟩
abbrev main_c_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56_0 : Ref sig .tc := ⟨.hbm, 78, rfl⟩
abbrev main_v56_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x3x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x3x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  inb_S2000x3x128_S2000x3x128_0_0_0 : ∀ a, (![0, 0, 0] : Fin 3 → Nat) a + S2000x3x128.size a ≤ S2000x3x128.size a
  h_S2000x3x128 : 0 < S2000x3x128.numel
  reduces_S2000x128_S2000 : S2000x128.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  reduces_S2000x3x128_S2000x128 : S2000x3x128.Reduces [1] S2000x128
  shapeCasts_S200000x1_S200000 : S200000x1.ShapeCasts S200000
  bcast_S_S200000 : S_.BroadcastsInDim S200000 (![] : Fin 0 → Fin S200000.rank)
  bcast_S_S512 : S_.BroadcastsInDim S512 (![] : Fin 0 → Fin S512.rank)
  bcast_S200000_S200000x1_0 : S200000.BroadcastsInDim S200000x1 (![0] : Fin 1 → Fin S200000x1.rank)
  bcast_S200000_S200000x1x1_0 : S200000.BroadcastsInDim S200000x1x1 (![0] : Fin 1 → Fin S200000x1x1.rank)
  shapeCasts_S2000x1_S2000x1 : S2000x1.ShapeCasts S2000x1
  inb_S2000x1x1_S2000x1x1_0_0_0 : ∀ a, (![0, 0, 0] : Fin 3 → Nat) a + S2000x1x1.size a ≤ S2000x1x1.size a
  h_S2000x1x1 : 0 < S2000x1x1.numel
  shapeCasts_S2000x1x1_S2000x1x1 : S2000x1x1.ShapeCasts S2000x1x1
  inb_S128_S128_0 : ∀ a, (![0] : Fin 1 → Nat) a + S128.size a ≤ S128.size a
  h_S128 : 0 < S128.numel
  broadcasts_S2000x1_S2000x128 : S2000x1.Broadcasts S2000x128
  shapeCasts_S128_S1x128 : S128.ShapeCasts S1x128
  broadcasts_S1x128_S2000x128 : S1x128.Broadcasts S2000x128
  broadcasts_S2000x1x1_S2000x3x128 : S2000x1x1.Broadcasts S2000x3x128
  scatter_S512_S200000x1_S200000_n_0_0_1_wf : ScatterDims.WF S512 S200000x1 S200000 [] [0] [0] 1
  gather_S512_S200000x1_S200000_n_0_n_n_0_1_1_wf : GatherDims.WF S512 S200000x1 S200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3x128.size a ≤ S200000x3x128.size a
  hwx0_1 : ∀ i : grid0.Coords, EltTy.bits .f32 = 32 ∨ (Rect.block (s := S200000x3x128) S2000x3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S200000x1.size a
  hwx0_2 : ∀ i : grid0.Coords, EltTy.bits .f32 = 32 ∨ (Rect.block (s := S200000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S200000x1.size a
  hwx0_3 : ∀ i : grid0.Coords, EltTy.bits .f32 = 32 ∨ (Rect.block (s := S200000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S200000x1.size a
  hwx0_4 : ∀ i : grid0.Coords, EltTy.bits .f32 = 32 ∨ (Rect.block (s := S200000x1) S2000x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S200000x128.size a
  hwx1_0 : ∀ i : grid1.Coords, EltTy.bits .f32 = 32 ∨ (Rect.block (s := S200000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x3x128.size a ≤ S200000x3x128.size a
  hwx1_1 : ∀ i : grid1.Coords, EltTy.bits .f32 = 32 ∨ (Rect.block (s := S200000x3x128) S2000x3x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S200000x1.size a
  hwx1_2 : ∀ i : grid1.Coords, EltTy.bits .f32 = 32 ∨ (Rect.block (s := S200000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S200000x1.size a
  hwx1_3 : ∀ i : grid1.Coords, EltTy.bits .f32 = 32 ∨ (Rect.block (s := S200000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1x1.size a ≤ S200000x1x1.size a
  hwx1_4 : ∀ i : grid1.Coords, EltTy.bits .f32 = 32 ∨ (Rect.block (s := S200000x1x1) S2000x1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S200000x128.size a
  hwx1_7 : ∀ i : grid1.Coords, EltTy.bits .f32 = 32 ∨ (Rect.block (s := S200000x128) S2000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x3x128.size a ≤ S200000x3x128.size a
  hwx1_8 : ∀ i : grid1.Coords, EltTy.bits .f32 = 32 ∨ (Rect.block (s := S200000x3x128) S2000x3x128.size (cc1_transform_8 i) (hinb1_8 i)).WholeWords (EltTy.packing .f32)

variable [Facts₀]

def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def gather_S512_S200000x1_S200000_n_0_n_n_0_1_1 : GatherDims S512 S200000x1 S200000 where
  offsetDims := []
  collapsedSliceDims := [0]
  operandBatchingDims := []
  startIndicesBatchingDims := []
  startIndexMap := [0]
  indexVectorDim := 1
  sliceSizes := ![1]
  wf := gather_S512_S200000x1_S200000_n_0_n_n_0_1_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x3x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2000x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2000x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S2000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x3x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v55) S2000x1x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v56_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v56_1) S2000x3x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S200000x128 : Shape := ⟨2, ![200000, 128]⟩
abbrev S200000x3x128 : Shape := ⟨3, ![200000, 3, 128]⟩
abbrev S200000 : Shape := ⟨1, ![200000]⟩
abbrev S128 : Shape := ⟨1, ![128]⟩
abbrev S_ : Shape := ⟨0, ![]⟩
abbrev S512 : Shape := ⟨1, ![512]⟩
abbrev S200000x1 : Shape := ⟨2, ![200000, 1]⟩
abbrev S1x128 : Shape := ⟨2, ![1, 128]⟩
abbrev S200000x1x1 : Shape := ⟨3, ![200000, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000x3x128, .f32⟩
  | .hbm, ⟨2, _⟩ => ⟨S200000, .i32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S200000, .f32⟩
  | .hbm, ⟨7, _⟩ => ⟨S_, .f32⟩
  | .hbm, ⟨8, _⟩ => ⟨S512, .f32⟩
  | .hbm, ⟨9, _⟩ => ⟨S200000x1, .i32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S200000, .f32⟩
  | .hbm, ⟨16, _⟩ => ⟨S_, .f32⟩
  | .hbm, ⟨17, _⟩ => ⟨S200000, .f32⟩
  | .hbm, ⟨18, _⟩ => ⟨S200000, .f32⟩
  | .hbm, ⟨19, _⟩ => ⟨S_, .f32⟩
  | .hbm, ⟨20, _⟩ => ⟨S512, .f32⟩
  | .hbm, ⟨21, _⟩ => ⟨S200000x1, .i32⟩
  | .hbm, ⟨22, _⟩ => ⟨S512, .f32⟩
  | .hbm, ⟨23, _⟩ => ⟨S512, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000, .f32⟩
  | .hbm, ⟨33, _⟩ => ⟨S200000x1, .f32⟩
  | .hbm, ⟨34, _⟩ => ⟨S200000x128, .f32⟩
  | .hbm, ⟨35, _⟩ => ⟨S200000x128, .f32⟩
  | .hbm, ⟨36, _⟩ => ⟨S200000x128, .f32⟩
  | .hbm, ⟨37, _⟩ => ⟨S_, .f32⟩
  | .hbm, ⟨38, _⟩ => ⟨S200000, .f32⟩
  | .hbm, ⟨39, _⟩ => ⟨S_, .f32⟩
  | .hbm, ⟨40, _⟩ => ⟨S200000, .f32⟩
  | .hbm, ⟨41, _⟩ => ⟨S200000, .f32⟩
  | .hbm, ⟨42, _⟩ => ⟨S_, .f32⟩
  | .hbm, ⟨43, _⟩ => ⟨S512, .f32⟩
  | .hbm, ⟨44, _⟩ => ⟨S200000x1, .i32⟩
  | .hbm, ⟨45, _⟩ => ⟨S512, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S_, .i32⟩
  | .hbm, ⟨51, _⟩ => ⟨S200000, .i32⟩
  | .hbm, ⟨52, _⟩ => ⟨S200000, .i1⟩
  | .hbm, ⟨53, _⟩ => ⟨S_, .i32⟩
  | .hbm, ⟨54, _⟩ => ⟨S200000, .i32⟩
  | .hbm, ⟨55, _⟩ => ⟨S200000, .i32⟩
  | .hbm, ⟨56, _⟩ => ⟨S200000, .i32⟩
  | .hbm, ⟨57, _⟩ => ⟨S200000x1, .i32⟩
  | .hbm, ⟨58, _⟩ => ⟨S200000, .f32⟩
  | .hbm, ⟨59, _⟩ => ⟨S200000x1, .f32⟩
  | .hbm, ⟨60, _⟩ => ⟨S200000x128, .f32⟩
  | .hbm, ⟨61, _⟩ => ⟨S200000x128, .f32⟩
  | .hbm, ⟨62, _⟩ => ⟨S1x128, .f32⟩
  | .hbm, ⟨63, _⟩ => ⟨S200000x128, .f32⟩
  | .hbm, ⟨64, _⟩ => ⟨S200000x128, .f32⟩
  | .hbm, ⟨65, _⟩ => ⟨S1x128, .f32⟩
  | .hbm, ⟨66, _⟩ => ⟨S200000x128, .f32⟩
  | .hbm, ⟨67, _⟩ => ⟨S200000x128, .f32⟩
  | .hbm, ⟨68, _⟩ => ⟨S200000x3x128, .f32⟩
  | .hbm, ⟨69, _⟩ => ⟨S_, .f32⟩
  | .hbm, ⟨70, _⟩ => ⟨S200000x128, .f32⟩
  | .hbm, ⟨71, _⟩ => ⟨S_, .f32⟩
  | .hbm, ⟨72, _⟩ => ⟨S200000, .f32⟩
  | .hbm, ⟨73, _⟩ => ⟨S_, .f32⟩
  | .hbm, ⟨74, _⟩ => ⟨S200000, .f32⟩
  | .hbm, ⟨75, _⟩ => ⟨S200000, .f32⟩
  | .hbm, ⟨76, _⟩ => ⟨S_, .f32⟩
  | .hbm, ⟨77, _⟩ => ⟨S512, .f32⟩
  | .hbm, ⟨78, _⟩ => ⟨S200000x1, .i32⟩
  | .hbm, ⟨79, _⟩ => ⟨S512, .f32⟩
  | .hbm, ⟨80, _⟩ => ⟨S512, .f32⟩
  | .hbm, ⟨81, _⟩ => ⟨S_, .f32⟩
  | .hbm, ⟨82, _⟩ => ⟨S512, .f32⟩
  | .hbm, ⟨83, _⟩ => ⟨S512, .f32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000, .f32⟩
  | .hbm, ⟨93, _⟩ => ⟨S200000x1x1, .f32⟩
  | .hbm, ⟨94, _⟩ => ⟨S200000x3x128, .f32⟩
  | .hbm, ⟨95, _⟩ => ⟨S200000x3x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_c_10 : Ref sig .tc := ⟨.hbm, 50, rfl⟩
abbrev main_v33 : Ref sig .tc := ⟨.hbm, 51, rfl⟩
abbrev main_v34 : Ref sig .tc := ⟨.hbm, 52, rfl⟩
abbrev main_c_11 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_16 : Ref sig .tc := ⟨.hbm, 81, rfl⟩
abbrev main_v58 : Ref sig .tc := ⟨.hbm, 82, rfl⟩
abbrev main_v59 : Ref sig .tc := ⟨.hbm, 83, rfl⟩
abbrev main_c_17 : Ref sig .tc := ⟨.hbm, 84, rfl⟩
abbrev main_v60 : Ref sig .tc := ⟨.hbm, 85, rfl⟩
abbrev main_v61 : Ref sig .tc := ⟨.hbm, 86, rfl⟩
abbrev main_c_18 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S_S512 : S_.BroadcastsInDim S512 (![] : Fin 0 → Fin S512.rank)
  bcast_S200000_S200000x1_0 : S200000.BroadcastsInDim S200000x1 (![0] : Fin 1 → Fin S200000x1.rank)
  reducesTo_S200000x128_S200000_d1 : S200000x128.ReducesTo [1] S200000
  h_S_ : 0 < S_.numel
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  reducesTo_S200000x3x128_S200000x128_d1 : S200000x3x128.ReducesTo [1] S200000x128
  bcast_S200000_S200000x1x1_0 : S200000.BroadcastsInDim S200000x1x1 (![0] : Fin 1 → Fin S200000x1x1.rank)
  bcast_S200000x1x1_S200000x3x128_0_1_2 : S200000x1x1.BroadcastsInDim S200000x3x128 (![0, 1, 2] : Fin 3 → Fin S200000x3x128.rank)
  scatter_S512_S200000x1_S200000_n_0_0_1_wf : ScatterDims.WF S512 S200000x1 S200000 [] [0] [0] 1
  gather_S512_S200000x1_S200000_n_0_n_n_0_1_1_wf : GatherDims.WF S512 S200000x1 S200000 [] [0] [] [0] [] 1 ![1]

variable [Facts₀]

def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def gather_S512_S200000x1_S200000_n_0_n_n_0_1_1 : GatherDims S512 S200000x1 S200000 where
  offsetDims := []
  collapsedSliceDims := [0]
  operandBatchingDims := []
  startIndicesBatchingDims := []
  startIndexMap := [0]
  indexVectorDim := 1
  sliceSizes := ![1]
  wf := gather_S512_S200000x1_S200000_n_0_n_n_0_1_1_wf

class Facts : Prop extends Facts₀ where

variable [Facts]
-- ==== Proof.Spec.lean ====
/-
  Graph-wise normalisation of node features, as one function of the argument arrays.

  Nodes `n < 200000` carry a feature row `s n : ℝ^128` and three vector rows `v n k : ℝ^128`; `idx n` assigns node `n`
  to one of 512 graphs.  For a per-node quantity `x` its SEGMENT MEAN over graph `g` is the sum of `x n` over the nodes
  whose index is `g`, divided by the number of those nodes (at least one); the segment mean GATHERED BACK to node `n`
  is the mean of the graph that `idx n` names (a negative index counted from the end, then clamped into range).
  With `μ n` the gathered segment mean of the row means of `s`,
      centred     c n j = s n j - μ n,
      variance    the gathered segment mean of the row means of `c²`, floored at ε,
      s_out n j   = (c n j / variance n) · w j + b j,
      v_out n k j = v n k j / (the gathered segment mean of the row means of `Σ_k v²`, floored at ε).
  Everything here is a composition of the array operations themselves, at any float instance: the two programs are
  compared with THESE terms, and the terms are opened only where the mathematics needs an entry.
-/
import Idealize.ShloMosaic.PureOps

noncomputable section

namespace Cert.SegNorm

open Idealize.ShloMosaic

/-! ## Shapes -/

abbrev Sc : Shape := ⟨0, ![]⟩
abbrev Nodes : Shape := ⟨1, ![200000]⟩
abbrev NodesCol : Shape := ⟨2, ![200000, 1]⟩
abbrev NodesCol3 : Shape := ⟨3, ![200000, 1, 1]⟩
abbrev NodesChan : Shape := ⟨2, ![200000, 128]⟩
abbrev NodesVec : Shape := ⟨3, ![200000, 3, 128]⟩
abbrev Chan : Shape := ⟨1, ![128]⟩
abbrev ChanRow : Shape := ⟨2, ![1, 128]⟩
abbrev Graphs : Shape := ⟨1, ![512]⟩

/-! ## Shape relations the operations ask for -/

theorem sc_pos : 0 < Sc.numel := by decide
theorem sc_nodes : Sc.BroadcastsInDim Nodes (![] : Fin 0 → Fin Nodes.rank) := by decide
theorem sc_graphs : Sc.BroadcastsInDim Graphs (![] : Fin 0 → Fin Graphs.rank) := by decide
theorem nodes_col : Nodes.BroadcastsInDim NodesCol (![0] : Fin 1 → Fin NodesCol.rank) := by decide
theorem nodes_col3 : Nodes.BroadcastsInDim NodesCol3 (![0] : Fin 1 → Fin NodesCol3.rank) := by decide
theorem col_chan : NodesCol.BroadcastsInDim NodesChan (![0, 1] : Fin 2 → Fin NodesChan.rank) := by decide
theorem col3_vec : NodesCol3.BroadcastsInDim NodesVec (![0, 1, 2] : Fin 3 → Fin NodesVec.rank) := by decide
theorem chan_row : Chan.BroadcastsInDim ChanRow (![1] : Fin 1 → Fin ChanRow.rank) := by decide
theorem row_chan : ChanRow.BroadcastsInDim NodesChan (![0, 1] : Fin 2 → Fin NodesChan.rank) := by decide
theorem chan_sums : NodesChan.ReducesTo [1] Nodes := by decide
theorem vec_sums : NodesVec.ReducesTo [1] NodesChan := by decide

/-- Adding per-node updates into per-graph cells: update `n` goes to the cell its index names. -/
def segAddDims : ScatterDims Graphs NodesCol Nodes where
  updateWindowDims := []
  insertedWindowDims := [0]
  scatterDimsToOperandDims := [0]
  indexVectorDim := 1
  wf := by decide

/-- Reading a per-graph table back per node: node `n` reads the cell its index names. -/
def takeDims : GatherDims Graphs NodesCol Nodes where
  offsetDims := []
  collapsedSliceDims := [0]
  operandBatchingDims := []
  startIndicesBatchingDims := []
  startIndexMap := [0]
  indexVectorDim := 1
  sliceSizes := ![1]
  wf := by decide

variable {F : FTy → Type} [FloatOps F]

/-! ## Segment means -/

/-- The per-graph table holding one float word everywhere. -/
def graphsConst (w : BitVec 32) : FVec F Graphs .f32 := broadcastInDim Graphs ![] sc_graphs (constant Sc .f32 w)

/-- The per-node array holding one float word everywhere. -/
def nodesConst (w : BitVec 32) : FVec F Nodes .f32 := broadcastInDim Nodes ![] sc_nodes (constant Sc .f32 w)

/-- The node indices as a column of start indices. -/
def idxCol (idx : IVec Nodes 32) : IVec NodesCol 32 := broadcastInDim NodesCol ![0] nodes_col idx

/-- The sum of `x n` over the nodes of each graph. -/
def segSum (idx : IVec Nodes 32) (x : FVec F Nodes .f32) : FVec F Graphs .f32 :=
  Host.scatterAdd segAddDims (graphsConst 0x00000000#32) (idxCol idx) x

/-- The number of nodes of each graph, at least one. -/
def counts (idx : IVec Nodes 32) : FVec F Graphs .f32 :=
  maximumf (segSum idx (nodesConst 0x3F800000#32)) (graphsConst 0x3F800000#32)

/-- The mean of `x n` over the nodes of each graph. -/
def segMean (idx : IVec Nodes 32) (x : FVec F Nodes .f32) : FVec F Graphs .f32 :=
  Host.divf (segSum idx x) (counts idx)

/-- The node indices with a negative one counted from the end, as a column of start indices. -/
def wrapCol (idx : IVec Nodes 32) : IVec NodesCol 32 :=
  idxCol (select (cmpi .slt idx (broadcastInDim Nodes ![] sc_nodes (constantI Sc 32 0#32)))
    (addi idx (broadcastInDim Nodes ![] sc_nodes (constantI Sc 32 512#32))) idx)

/-- A per-graph table read back per node. -/
def perNode (idx : IVec Nodes 32) (tbl : FVec F Graphs .f32) : FVec F Nodes .f32 :=
  Host.gather takeDims tbl (wrapCol idx)

/-- A per-graph table floored at ε, read back per node. -/
def flooredPerNode (idx : IVec Nodes 32) (tbl : FVec F Graphs .f32) : FVec F Nodes .f32 :=
  perNode idx (maximumf tbl (graphsConst 0x358637BD#32))

/-! ## Row means -/

/-- The mean over the 128 channels of each node's row. -/
def rowMean (x : FVec F NodesChan .f32) : FVec F Nodes .f32 :=
  Host.divf (Host.reduceAdd x (constant Sc .f32 0x00000000#32) chan_sums sc_pos) (nodesConst 0x43000000#32)

/-- Each node's three vector rows summed into one row. -/
def vecSum (x : FVec F NodesVec .f32) : FVec F NodesChan .f32 :=
  Host.reduceAdd x (constant Sc .f32 0x00000000#32) vec_sums sc_pos

/-- A per-node array spread along the channels. -/
def alongChan (x : FVec F Nodes .f32) : FVec F NodesChan .f32 :=
  broadcastInDim NodesChan ![0, 1] col_chan (broadcastInDim NodesCol ![0] nodes_col x)

/-- A per-node array spread along the three vector rows and the channels. -/
def alongVec (x : FVec F Nodes .f32) : FVec F NodesVec .f32 :=
  broadcastInDim NodesVec ![0, 1, 2] col3_vec (broadcastInDim NodesCol3 ![0] nodes_col3 x)

/-- A per-channel array spread along the nodes. -/
def alongNodes (x : FVec F Chan .f32) : FVec F NodesChan .f32 :=
  broadcastInDim NodesChan ![0, 1] row_chan (broadcastInDim ChanRow ![1] chan_row x)

/-! ## The two results -/

/-- `μ`: the mean of the row means over each node's graph. -/
def nodeMean (s : FVec F NodesChan .f32) (idx : IVec Nodes 32) : FVec F Nodes .f32 :=
  perNode idx (segMean idx (rowMean s))

/-- The features centred by their graph's mean. -/
def centred (s : FVec F NodesChan .f32) (idx : IVec Nodes 32) : FVec F NodesChan .f32 :=
  subf s (alongChan (nodeMean s idx))

/-- Each node's mean squared centred feature. -/
def nodeVar (s : FVec F NodesChan .f32) (idx : IVec Nodes 32) : FVec F Nodes .f32 :=
  rowMean (mulf (centred s idx) (centred s idx))

/-- The variance of each node's graph, floored at ε. -/
def graphVar (s : FVec F NodesChan .f32) (idx : IVec Nodes 32) : FVec F Nodes .f32 :=
  flooredPerNode idx (segMean idx (nodeVar s idx))

/-- The normalised features: centred, divided by the graph's variance, scaled and shifted per channel. -/
def sOut (s : FVec F NodesChan .f32) (idx : IVec Nodes 32) (w b : FVec F Chan .f32) : FVec F NodesChan .f32 :=
  addf (mulf (Host.divf (centred s idx) (alongChan (graphVar s idx))) (alongNodes w)) (alongNodes b)

/-- Each node's mean squared vector norm. -/
def nodeNorm (v : FVec F NodesVec .f32) : FVec F Nodes .f32 :=
  rowMean (vecSum (mulf v v))

/-- The mean squared vector norm of each node's graph, floored at ε. -/
def graphNorm (v : FVec F NodesVec .f32) (idx : IVec Nodes 32) : FVec F Nodes .f32 :=
  flooredPerNode idx (segMean idx (nodeNorm v))

/-- The normalised vectors. -/
def vOut (v : FVec F NodesVec .f32) (idx : IVec Nodes 32) : FVec F NodesVec .f32 :=
  Host.divf v (alongVec (graphNorm v idx))

/-- The variance each node contributes, expanded: `mean(s²) - 2·μ·mean(s) + μ²`. -/
def nodeVarExpanded (rowSq rowM μ : FVec F Nodes .f32) : FVec F Nodes .f32 :=
  addf (subf rowSq (mulf (mulf (nodesConst 0x40000000#32) μ) rowM)) (mulf μ μ)

end Cert.SegNorm

end
-- ==== Proof.Columns.lean ====
/-
  The three per-node columns the first kernel region produces, written entry by entry at the extended reals: the mean
  over the 128 channels of a node's row, of its squared row, and of its three squared vector rows summed. Each is the
  quotient of a finite sum by the float 128.  And the predicate "every entry is a real number", under which the
  extended reals' arithmetic is the reals'.
-/
import proofs.«115249_j37254546325938_1_alg».proof.Proof.Spec
import Idealize.ShloMosaic.PureOps.Ideal
import Idealize.ShloMosaic.Lib.ValueIdx

noncomputable section

open scoped BigOperators

namespace Cert.SegNorm

open Idealize.ShloMosaic Idealize.ShloMosaic.ValueIdx

/-- Every entry of the array is a real number (neither infinity). -/
def AllReal {s : Shape} (x : s.Idx → EReal) : Prop := ∀ i, ∃ r : ℝ, x i = (r : EReal)

/-- The float 128, the number of channels. -/
abbrev chans : EReal := Ideal.ofBits .f32 0x43000000#32

/-- Row means as a column: entry `(n, 0)` is `(Σ_k x n k) / 128`. -/
def colMean (x : FVec Ideal NodesChan .f32) : FVec Ideal NodesCol .f32 :=
  fun i => Ideal.div (∑ k : Fin 128, x (ix2 (i 0) k)) chans

/-- Row means of the squares as a column: entry `(n, 0)` is `(Σ_k (x n k)²) / 128`. -/
def colMeanSq (x : FVec Ideal NodesChan .f32) : FVec Ideal NodesCol .f32 :=
  fun i => Ideal.div (∑ k : Fin 128, x (ix2 (i 0) k) * x (ix2 (i 0) k)) chans

/-- Mean squared vector norms as a column: entry `(n, 0)` is `(Σ_k Σ_r (v n r k)²) / 128`. -/
def colNorm (v : FVec Ideal NodesVec .f32) : FVec Ideal NodesCol .f32 :=
  fun i => Ideal.div (∑ k : Fin 128, ∑ r : Fin 3, v (ix3 (i 0) r k) * v (ix3 (i 0) r k)) chans

end Cert.SegNorm

end
-- ==== Proof.Region0Value.lean ====
/-
  What the first kernel region leaves in its three output arrays, at the extended reals: each grid point `t` owns the
  2000 rows `2000·t … 2000·t + 1999`, reads those rows of `s` and `v`, and writes for each row the mean over the 128
  channels of the row, of its square, and of the three squared vector rows summed; the 100 blocks tile the 200000
  rows, so each array ends as the corresponding column of means of the arrays the region was entered with.
-/
import proofs.«115249_j37254546325938_1_alg».proof.Proof.Gen.KernelIdeal.Frame
import proofs.«115249_j37254546325938_1_alg».proof.Proof.Columns
import Idealize.ShloMosaic.Lib.Pipeline.Value
import Idealize.ShloMosaic.PureOps.Ideal.Laws

set_option maxRecDepth 16384

noncomputable section

open scoped BigOperators

namespace Cert.KernelIdeal.R0Value

open Cert.KernelIdeal Cert.KernelIdeal.Gen Cert.SegNorm
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The sum over the 128 lanes of a block of 2000 rows, at row `r`. -/
private theorem laneSum (x : FVec Ideal S2000x128 .f32) (h : S2000x128.Reduces [1] S2000) (hφ : FKind.Formats .f32)
    (hacc : (0x00000000#32 : BitVec 32) = 0x00000000#32) (r : Fin 2000) :
    multiReduction (F := Ideal) .add [1] S2000 x 0x00000000#32 h hφ hacc (ix1 r) = ∑ k : Fin 128, x (ix2 r k) := by
  refine (Ideal.multiReduction_add_single x 0x00000000#32 h hφ hacc (ix1 r)).trans ?_
  refine Finset.sum_congr rfl fun k _ => congrArg x ?_
  funext a; apply Fin.ext
  match a with
  | ⟨0, _⟩ => rfl
  | ⟨1, _⟩ => rfl

/-- A column of 2000 entries made from a vector of 2000 reads the vector at its row. -/
private theorem colCast (y : FVec Ideal S2000 .f32) (h : S2000.ShapeCasts S2000x1) (j : S2000x1.Idx) :
    shapeCast S2000x1 y h j = y (ix1 (j 0)) := by
  refine shapeCast_apply y h j (ix1 (j 0)) ?_
  rw [Shape.rowMajor_val_one, Shape.rowMajor_val_two]
  have h1 : (j 1).val < 1 := (j 1).isLt
  show (j 0).val = (j 0).val * 1 + (j 1).val
  omega

/-- The first payload at an entry: the row's sum over the lanes, divided by 128. -/
private theorem pay1_apply (x0 : Vec Ideal S2000x128 .f32) (j : S2000x1.Idx) :
    k0_pay1 x0 j = Ideal.div (∑ k : Fin 128, x0 (ix2 (j 0) k)) chans := by
  unfold k0_pay1
  show Ideal.div (shapeCast S2000x1 _ _ j) chans = _
  exact congrArg (fun z => Ideal.div z chans) ((colCast _ _ j).trans (laneSum x0 _ _ _ (j 0)))

/-- The sum over the 3 vector rows of a block, at row `r` and lane `k`. -/
private theorem vecRowSum (x : FVec Ideal S2000x3x128 .f32) (h : S2000x3x128.Reduces [1] S2000x128) (hφ : FKind.Formats .f32)
    (hacc : (0x00000000#32 : BitVec 32) = 0x00000000#32) (r : Fin 2000) (k : Fin 128) :
    multiReduction (F := Ideal) .add [1] S2000x128 x 0x00000000#32 h hφ hacc (ix2 r k) = ∑ q : Fin 3, x (ix3 r q k) := by
  refine (Ideal.multiReduction_add_single x 0x00000000#32 h hφ hacc (ix2 r k)).trans ?_
  refine Finset.sum_congr rfl fun q _ => congrArg x ?_
  funext a; apply Fin.ext
  match a with
  | ⟨0, _⟩ => rfl
  | ⟨1, _⟩ => rfl
  | ⟨2, _⟩ => rfl

/-- The second payload at an entry: the row's sum of squares over the lanes, divided by 128. -/
private theorem pay2_apply (x0 : Vec Ideal S2000x128 .f32) (j : S2000x1.Idx) :
    k0_pay2 x0 j = Ideal.div (∑ k : Fin 128, x0 (ix2 (j 0) k) * x0 (ix2 (j 0) k)) chans := by
  unfold k0_pay2
  show Ideal.div (shapeCast S2000x1 _ _ j) chans = _
  exact congrArg (fun z => Ideal.div z chans) ((colCast _ _ j).trans (laneSum (mulf x0 x0) _ _ _ (j 0)))

/-- The third payload at an entry: the squares of the row's three vector rows summed over rows and lanes, divided by 128. -/
private theorem pay3_apply (x1 : Vec Ideal S2000x3x128 .f32) (j : S2000x1.Idx) :
    k0_pay3 x1 j = Ideal.div (∑ k : Fin 128, ∑ q : Fin 3, x1 (ix3 (j 0) q k) * x1 (ix3 (j 0) q k)) chans := by
  unfold k0_pay3
  show Ideal.div (shapeCast S2000x1 _ _ j) chans = _
  refine congrArg (fun z => Ideal.div z chans) ((colCast _ _ j).trans ((laneSum _ _ _ _ (j 0)).trans ?_))
  exact Finset.sum_congr rfl fun k _ => vecRowSum (mulf x1 x1) _ _ _ (j 0) k

private theorem zero2 : (![0, 0] : Fin 2 → Nat) = fun _ => 0 := funext fun a => by fin_cases a <;> rfl
private theorem zero3 : (![0, 0, 0] : Fin 3 → Nat) = fun _ => 0 := funext fun a => by fin_cases a <;> rfl

/-- Grid point `t` reads block `t` of `s` (rows `2000·t …`, every lane). -/
private theorem idx0 : ∀ t : Fin cfg0.N, win0_0.index t (0 : Fin 2) = t.val ∧ win0_0.index t (1 : Fin 2) = 0 :=
  (by decide +kernel : ∀ t : Fin grid0.N, _)
/-- Grid point `t` reads block `t` of `v` (rows `2000·t …`, every vector row and lane). -/
private theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- An entry of the block of `s` at point `t` is the entry of `s` 2000·t rows further down. -/
private theorem sblk_apply (c : Dev nD) (t : Fin cfg0.N) (y : S2000x128.Idx) (i : S200000x128.Idx)
    (h0 : (i 0).val = 2000 * t.val + (y 0).val) (h1 : (i 1).val = (y 1).val) :
    (iblk0 V c 0 t : Vec Ideal S2000x128 .f32) y = (V c main_arg0 : S200000x128.Idx → Elt Ideal .f32) i := by
  obtain ⟨e0, e1⟩ := idx0 t
  unfold iblk0
  rw [View.read_apply]
  show V c main_arg0 _ = V c main_arg0 _
  congr 1
  funext a
  apply Fin.ext
  match a with
  | ⟨0, _⟩ => show win0_0.index t 0 * 2000 + 1 * (y 0).val = (i 0).val; rw [e0, h0]; omega
  | ⟨1, _⟩ => show win0_0.index t 1 * 128 + 1 * (y 1).val = (i 1).val; rw [e1, h1]; omega

/-- An entry of the block of `v` at point `t` is the entry of `v` 2000·t rows further down. -/
private theorem vblk_apply (c : Dev nD) (t : Fin cfg0.N) (y : S2000x3x128.Idx) (i : S200000x3x128.Idx)
    (h0 : (i 0).val = 2000 * t.val + (y 0).val) (h1 : (i 1).val = (y 1).val) (h2 : (i 2).val = (y 2).val) :
    (iblk0 V c 1 t : Vec Ideal S2000x3x128 .f32) y = (V c main_arg1 : S200000x3x128.Idx → Elt Ideal .f32) i := by
  obtain ⟨e0, e1, e2⟩ := idx1 t
  unfold iblk0
  rw [View.read_apply]
  show V c main_arg1 _ = V c main_arg1 _
  congr 1
  funext a
  apply Fin.ext
  match a with
  | ⟨0, _⟩ => show win0_1.index t 0 * 2000 + 1 * (y 0).val = (i 0).val; rw [e0, h0]; omega
  | ⟨1, _⟩ => show win0_1.index t 1 * 3 + 1 * (y 1).val = (i 1).val; rw [e1, h1]; omega
  | ⟨2, _⟩ => show win0_1.index t 2 * 128 + 1 * (y 2).val = (i 2).val; rw [e2, h2]; omega

/-- Grid point `t` writes block `t` of the first output column. -/
private theorem idx2 : ∀ t : Fin cfg0.N, win0_2.index t (0 : Fin 2) = t.val ∧ win0_2.index t (1 : Fin 2) = 0 :=
  (by decide +kernel : ∀ t : Fin grid0.N, _)

/-- Row `r` of the output block at point `t` is row `2000·t + r` of the column. -/
private theorem row2 (t : Fin cfg0.N) (j : S2000x1.Idx) :
    ((((cfg0.win 2).blk t).view.emb j) 0).val = 2000 * t.val + (j 0).val := by
  show win0_2.index t 0 * 2000 + 1 * (j 0).val = _
  rw [(idx2 t).1]; omega

/-- An index of the column is in point `t`'s block iff each coordinate is in the block's range on its axis. -/
private theorem mem_blk2 (t : Fin cfg0.N) (i : S200000x1.Idx) :
    i ∈ ((cfg0.win 2).blk t).view.set ↔ ∀ a : Fin 2, win0_2.index t a * S2000x1.size a ≤ (i a).val ∧ (i a).val < win0_2.index t a * S2000x1.size a + S2000x1.size a := by
  show i ∈ ((View.whole main_v0_0).slice (win0_2.rect t)).set ↔ _
  rw [View.set_slice_whole, Rect.mem_set_unit]
  exact Iff.rfl

/-- Row `r` of the column lies in the block of point `r / 2000`. -/
private theorem cover2 (i : S200000x1.Idx) : ∃ t : Fin cfg0.N, (cfg0.win 2).flush t = true ∧ i ∈ ((cfg0.win 2).blk t).view.set := by
  have hi0 : (i 0).val < 200000 := (i 0).isLt
  have hi1 : (i 1).val < 1 := (i 1).isLt
  have hN : grid0.N = 100 := N_0
  have ht : (i 0).val / 2000 < cfg0.N := by show (i 0).val / 2000 < grid0.N; omega
  obtain ⟨e0, e1⟩ := idx2 ⟨(i 0).val / 2000, ht⟩
  refine ⟨⟨(i 0).val / 2000, ht⟩, flush0_2 _, ?_⟩
  rw [mem_blk2]
  intro a
  match a with
  | ⟨0, _⟩ => show win0_2.index ⟨(i 0).val / 2000, ht⟩ 0 * 2000 ≤ (i 0).val ∧ (i 0).val < win0_2.index ⟨(i 0).val / 2000, ht⟩ 0 * 2000 + 2000; rw [e0]; show (i 0).val / 2000 * 2000 ≤ (i 0).val ∧ (i 0).val < (i 0).val / 2000 * 2000 + 2000; omega
  | ⟨1, _⟩ => show win0_2.index ⟨(i 0).val / 2000, ht⟩ 1 * 1 ≤ (i 1).val ∧ (i 1).val < win0_2.index ⟨(i 0).val / 2000, ht⟩ 1 * 1 + 1; rw [e1]; omega

/-- What point `t` writes back to the first output column is block `t` of the column of row means. -/
private theorem flushed2_eq (c : Dev nD) (t : Fin cfg0.N) :
    (dat0 V c).flushed 2 t = ((cfg0.win 2).blk t).view.read (Elt Ideal) (colMean (V c main_arg0)) := by
  show (cfg0.win 2).cut (grid0.coords t) ((dat0 V c).after 2 t) = _
  rw [after0_2]
  unfold out0_2
  rw [View.canon_unit_zero zero2]
  simp only [View.ld_unit_zero (S := S2000x128) zero2]
  funext j
  show k0_pay1 (iblk0 V c 0 t) j = colMean (V c main_arg0) (((cfg0.win 2).blk t).view.emb j)
  rw [pay1_apply]
  refine congrArg (fun z => Ideal.div z chans) (Finset.sum_congr rfl fun k _ => ?_)
  exact sblk_apply V c t (ix2 (j 0) k) (ix2 ((((cfg0.win 2).blk t).view.emb j) 0) k) (row2 t j) rfl

/-- Grid point `t` writes block `t` of the second output column. -/
private theorem idx3 : ∀ t : Fin cfg0.N, win0_3.index t (0 : Fin 2) = t.val ∧ win0_3.index t (1 : Fin 2) = 0 :=
  (by decide +kernel : ∀ t : Fin grid0.N, _)

/-- Row `r` of the output block at point `t` is row `2000·t + r` of the column. -/
private theorem row3 (t : Fin cfg0.N) (j : S2000x1.Idx) :
    ((((cfg0.win 3).blk t).view.emb j) 0).val = 2000 * t.val + (j 0).val := by
  show win0_3.index t 0 * 2000 + 1 * (j 0).val = _
  rw [(idx3 t).1]; omega

/-- An index of the column is in point `t`'s block iff each coordinate is in the block's range on its axis. -/
private theorem mem_blk3 (t : Fin cfg0.N) (i : S200000x1.Idx) :
    i ∈ ((cfg0.win 3).blk t).view.set ↔ ∀ a : Fin 2, win0_3.index t a * S2000x1.size a ≤ (i a).val ∧ (i a).val < win0_3.index t a * S2000x1.size a + S2000x1.size a := by
  show i ∈ ((View.whole main_v0_1).slice (win0_3.rect t)).set ↔ _
  rw [View.set_slice_whole, Rect.mem_set_unit]
  exact Iff.rfl

/-- Row `r` of the column lies in the block of point `r / 2000`. -/
private theorem cover3 (i : S200000x1.Idx) : ∃ t : Fin cfg0.N, (cfg0.win 3).flush t = true ∧ i ∈ ((cfg0.win 3).blk t).view.set := by
  have hi0 : (i 0).val < 200000 := (i 0).isLt
  have hi1 : (i 1).val < 1 := (i 1).isLt
  have hN : grid0.N = 100 := N_0
  have ht : (i 0).val / 2000 < cfg0.N := by show (i 0).val / 2000 < grid0.N; omega
  obtain ⟨e0, e1⟩ := idx3 ⟨(i 0).val / 2000, ht⟩
  refine ⟨⟨(i 0).val / 2000, ht⟩, flush0_3 _, ?_⟩
  rw [mem_blk3]
  intro a
  match a with
  | ⟨0, _⟩ => show win0_3.index ⟨(i 0).val / 2000, ht⟩ 0 * 2000 ≤ (i 0).val ∧ (i 0).val < win0_3.index ⟨(i 0).val / 2000, ht⟩ 0 * 2000 + 2000; rw [e0]; show (i 0).val / 2000 * 2000 ≤ (i 0).val ∧ (i 0).val < (i 0).val / 2000 * 2000 + 2000; omega
  | ⟨1, _⟩ => show win0_3.index ⟨(i 0).val / 2000, ht⟩ 1 * 1 ≤ (i 1).val ∧ (i 1).val < win0_3.index ⟨(i 0).val / 2000, ht⟩ 1 * 1 + 1; rw [e1]; omega

/-- What point `t` writes back to the second output column is block `t` of the column of row means of squares. -/
private theorem flushed3_eq (c : Dev nD) (t : Fin cfg0.N) :
    (dat0 V c).flushed 3 t = ((cfg0.win 3).blk t).view.read (Elt Ideal) (colMeanSq (V c main_arg0)) := by
  show (cfg0.win 3).cut (grid0.coords t) ((dat0 V c).after 3 t) = _
  rw [after0_3]
  unfold out0_3
  rw [View.canon_unit_zero zero2]
  simp only [View.ld_unit_zero (S := S2000x128) zero2]
  funext j
  show k0_pay2 (iblk0 V c 0 t) j = colMeanSq (V c main_arg0) (((cfg0.win 3).blk t).view.emb j)
  rw [pay2_apply]
  refine congrArg (fun z => Ideal.div z chans) (Finset.sum_congr rfl fun k _ => ?_)
  have e := sblk_apply V c t (ix2 (j 0) k) (ix2 ((((cfg0.win 3).blk t).view.emb j) 0) k) (row3 t j) rfl
  rw [e]

/-- Grid point `t` writes block `t` of the third output column. -/
private theorem idx4 : ∀ t : Fin cfg0.N, win0_4.index t (0 : Fin 2) = t.val ∧ win0_4.index t (1 : Fin 2) = 0 :=
  (by decide +kernel : ∀ t : Fin grid0.N, _)

/-- Row `r` of the output block at point `t` is row `2000·t + r` of the column. -/
private theorem row4 (t : Fin cfg0.N) (j : S2000x1.Idx) :
    ((((cfg0.win 4).blk t).view.emb j) 0).val = 2000 * t.val + (j 0).val := by
  show win0_4.index t 0 * 2000 + 1 * (j 0).val = _
  rw [(idx4 t).1]; omega

/-- An index of the column is in point `t`'s block iff each coordinate is in the block's range on its axis. -/
private theorem mem_blk4 (t : Fin cfg0.N) (i : S200000x1.Idx) :
    i ∈ ((cfg0.win 4).blk t).view.set ↔ ∀ a : Fin 2, win0_4.index t a * S2000x1.size a ≤ (i a).val ∧ (i a).val < win0_4.index t a * S2000x1.size a + S2000x1.size a := by
  show i ∈ ((View.whole main_v0_2).slice (win0_4.rect t)).set ↔ _
  rw [View.set_slice_whole, Rect.mem_set_unit]
  exact Iff.rfl

/-- Row `r` of the column lies in the block of point `r / 2000`. -/
private theorem cover4 (i : S200000x1.Idx) : ∃ t : Fin cfg0.N, (cfg0.win 4).flush t = true ∧ i ∈ ((cfg0.win 4).blk t).view.set := by
  have hi0 : (i 0).val < 200000 := (i 0).isLt
  have hi1 : (i 1).val < 1 := (i 1).isLt
  have hN : grid0.N = 100 := N_0
  have ht : (i 0).val / 2000 < cfg0.N := by show (i 0).val / 2000 < grid0.N; omega
  obtain ⟨e0, e1⟩ := idx4 ⟨(i 0).val / 2000, ht⟩
  refine ⟨⟨(i 0).val / 2000, ht⟩, flush0_4 _, ?_⟩
  rw [mem_blk4]
  intro a
  match a with
  | ⟨0, _⟩ => show win0_4.index ⟨(i 0).val / 2000, ht⟩ 0 * 2000 ≤ (i 0).val ∧ (i 0).val < win0_4.index ⟨(i 0).val / 2000, ht⟩ 0 * 2000 + 2000; rw [e0]; show (i 0).val / 2000 * 2000 ≤ (i 0).val ∧ (i 0).val < (i 0).val / 2000 * 2000 + 2000; omega
  | ⟨1, _⟩ => show win0_4.index ⟨(i 0).val / 2000, ht⟩ 1 * 1 ≤ (i 1).val ∧ (i 1).val < win0_4.index ⟨(i 0).val / 2000, ht⟩ 1 * 1 + 1; rw [e1]; omega

/-- What point `t` writes back to the third output column is block `t` of the column of mean squared vector norms. -/
private theorem flushed4_eq (c : Dev nD) (t : Fin cfg0.N) :
    (dat0 V c).flushed 4 t = ((cfg0.win 4).blk t).view.read (Elt Ideal) (colNorm (V c main_arg1)) := by
  show (cfg0.win 4).cut (grid0.coords t) ((dat0 V c).after 4 t) = _
  rw [after0_4]
  unfold out0_4
  rw [View.canon_unit_zero zero2]
  simp only [View.ld_unit_zero (S := S2000x3x128) zero3]
  funext j
  show k0_pay3 (iblk0 V c 1 t) j = colNorm (V c main_arg1) (((cfg0.win 4).blk t).view.emb j)
  rw [pay3_apply]
  refine congrArg (fun z => Ideal.div z chans) (Finset.sum_congr rfl fun k _ => Finset.sum_congr rfl fun q _ => ?_)
  have e := vblk_apply V c t (ix3 (j 0) q k) (ix3 ((((cfg0.win 4).blk t).view.emb j) 0) q k) (row4 t j) rfl rfl
  rw [e]

/-- The first output array ends as the column of row means of `s`. -/
theorem final2 (c : Dev nD) : (dat0 V c).arrAt 2 cfg0.N = colMean (V c main_arg0) :=
  (dat0 V c).arrAt_eq_of_cover 2 (colMean (V c main_arg0)) (fun t _ => flushed2_eq V c t) cover2

/-- The second output array ends as the column of row means of `s²`. -/
theorem final3 (c : Dev nD) : (dat0 V c).arrAt 3 cfg0.N = colMeanSq (V c main_arg0) :=
  (dat0 V c).arrAt_eq_of_cover 3 (colMeanSq (V c main_arg0)) (fun t _ => flushed3_eq V c t) cover3

/-- The third output array ends as the column of mean squared vector norms. -/
theorem final4 (c : Dev nD) : (dat0 V c).arrAt 4 cfg0.N = colNorm (V c main_arg1) :=
  (dat0 V c).arrAt_eq_of_cover 4 (colNorm (V c main_arg1)) (fun t _ => flushed4_eq V c t) cover4

end Cert.KernelIdeal.R0Value

end
-- ==== Proof.Region1Value.lean ====
/-
  What the second kernel region leaves in its two output arrays, at any float instance.  Grid point `t` owns the 2000
  rows `2000·t … 2000·t + 1999`: it reads those rows of `s` and `v`, the same rows of three per-node columns
  `p`, `q` (shape [n, 1]) and `u` (shape [n, 1, 1]), and the whole per-channel arrays `w`, `b`, and writes
      s_out n k   = ((s n k - p n) / q n) · w k + b k,
      v_out n r k = v n r k / u n
  for its rows.  The 100 blocks tile the 200000 rows, so each output array ends as that one function of the arrays the
  region was entered with.
-/
import proofs.«115249_j37254546325938_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.R1Value

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The two results as functions of the arrays -/

/-- `((s n k - p n) / q n) · w k + b k`. -/
def normS (s : FVec F S200000x128 .f32) (p q : FVec F S200000x1 .f32) (w b : FVec F S128 .f32) : FVec F S200000x128 .f32 :=
  fun i => FloatOps.addf (FloatOps.mulf (FloatOps.divf (FloatOps.subf (s i) (p (ix2 (i 0) (0 : Fin 1)))) (q (ix2 (i 0) (0 : Fin 1))))
    (w (ix1 (i 1)))) (b (ix1 (i 1)))

/-- `v n r k / u n`. -/
def normV (v : FVec F S200000x3x128 .f32) (u : FVec F S200000x1x1 .f32) : FVec F S200000x3x128 .f32 :=
  fun i => FloatOps.divf (v i) (u (ix3 (i 0) (0 : Fin 1) (0 : Fin 1)))

/-! ## The body's two stored values at an entry of the block -/

theorem payS_apply (x0 : Vec F S2000x128 .f32) (x2 x3 : Vec F S2000x1 .f32) (x5 x6 : Vec F S128 .f32) (j : S2000x128.Idx) :
    k1_pay1 x0 x2 x3 x5 x6 j = FloatOps.addf (FloatOps.mulf (FloatOps.divf (FloatOps.subf (x0 j) (x2 (ix2 (j 0) (0 : Fin 1))))
      (x3 (ix2 (j 0) (0 : Fin 1)))) (x5 (ix1 (j 1)))) (x6 (ix1 (j 1))) := by
  unfold k1_pay1
  show FloatOps.addf (FloatOps.mulf (FloatOps.divf (FloatOps.subf (x0 j)
      (broadcastTo S2000x128 (shapeCast S2000x1 x2 shapeCasts_S2000x1_S2000x1) broadcasts_S2000x1_S2000x128 j))
      (broadcastTo S2000x128 (shapeCast S2000x1 x3 shapeCasts_S2000x1_S2000x1) broadcasts_S2000x1_S2000x128 j))
      (broadcastTo S2000x128 (shapeCast S1x128 x5 shapeCasts_S128_S1x128) broadcasts_S1x128_S2000x128 j))
      (broadcastTo S2000x128 (shapeCast S1x128 x6 shapeCasts_S128_S1x128) broadcasts_S1x128_S2000x128 j) = _
  rw [shapeCast_self, shapeCast_self]
  have hcol : ∀ x : Vec F S2000x1 .f32, broadcastTo S2000x128 x broadcasts_S2000x1_S2000x128 j = x (ix2 (j 0) (0 : Fin 1)) :=
    fun x => broadcastTo_apply x _ j _ (fun a => by
      match a with
      | ⟨0, _⟩ => rfl
      | ⟨1, _⟩ => rfl)
  have hrow : ∀ x : Vec F S128 .f32, broadcastTo S2000x128 (shapeCast S1x128 x shapeCasts_S128_S1x128) broadcasts_S1x128_S2000x128 j
      = x (ix1 (j 1)) := fun x =>
    (broadcastTo_apply (shapeCast S1x128 x shapeCasts_S128_S1x128) _ j (ix2 (0 : Fin 1) (j 1)) (fun a => by
      match a with
      | ⟨0, _⟩ => rfl
      | ⟨1, _⟩ => rfl)).trans (shapeCast_a_1a_apply x _ _ (j 1))
  rw [hcol, hcol, hrow, hrow]

theorem payV_apply (x1 : Vec F S2000x3x128 .f32) (x4 : Vec F S2000x1x1 .f32) (j : S2000x3x128.Idx) :
    k1_pay2 x1 x4 j = FloatOps.divf (x1 j) (x4 (ix3 (j 0) (0 : Fin 1) (0 : Fin 1))) := by
  unfold k1_pay2
  show FloatOps.divf (x1 j) (broadcastTo S2000x3x128 (shapeCast S2000x1x1 x4 shapeCasts_S2000x1x1_S2000x1x1)
    broadcasts_S2000x1x1_S2000x3x128 j) = _
  rw [shapeCast_self]
  refine congrArg (FloatOps.divf (x1 j)) ?_
  exact broadcastTo_apply x4 _ j _ (fun a => by
    match a with
    | ⟨0, _⟩ => rfl
    | ⟨1, _⟩ => rfl
    | ⟨2, _⟩ => rfl)

/-! ## The grid: every point's windows sit on the same 2000 rows -/

/-- The printed index maps, decided over the 100 grid points: every row-blocked window moves with the point on the
    row axis and stays at block 0 on the others; the per-channel windows stay at block 0. -/
theorem idx_facts : ∀ t : Fin cfg1.N,
    win1_0.index t (0 : Fin 2) = win1_7.index t (0 : Fin 2) ∧ win1_0.index t (1 : Fin 2) = 0
    ∧ win1_2.index t (0 : Fin 2) = win1_7.index t (0 : Fin 2) ∧ win1_2.index t (1 : Fin 2) = 0
    ∧ win1_3.index t (0 : Fin 2) = win1_7.index t (0 : Fin 2) ∧ win1_3.index t (1 : Fin 2) = 0
    ∧ win1_5.index t (0 : Fin 1) = 0 ∧ win1_6.index t (0 : Fin 1) = 0
    ∧ win1_7.index t (1 : Fin 2) = 0 ∧ win1_7.index t (0 : Fin 2) < 100
    ∧ win1_1.index t (0 : Fin 3) = win1_8.index t (0 : Fin 3) ∧ win1_1.index t (1 : Fin 3) = 0 ∧ win1_1.index t (2 : Fin 3) = 0
    ∧ win1_4.index t (0 : Fin 3) = win1_8.index t (0 : Fin 3) ∧ win1_4.index t (1 : Fin 3) = 0 ∧ win1_4.index t (2 : Fin 3) = 0
    ∧ win1_8.index t (1 : Fin 3) = 0 ∧ win1_8.index t (2 : Fin 3) = 0 ∧ win1_8.index t (0 : Fin 3) < 100 :=
  (by decide +kernel : ∀ t : Fin grid1.N, _)

/-- Every block of rows is some point's, for either output. -/
theorem idx_onto : ∀ q : Fin 100, ∃ t : Fin cfg1.N, win1_7.index t (0 : Fin 2) = q.val ∧ win1_8.index t (0 : Fin 3) = q.val :=
  (by decide +kernel : ∀ q : Fin 100, ∃ t : Fin grid1.N, win1_7.index t (0 : Fin 2) = q.val ∧ win1_8.index t (0 : Fin 3) = q.val)

variable (V : (c : Dev nD) → (b : Ref sig .tc) → Buf (Elt F) ((c : Thread nD τ).loc b))

/-! ## The vector output -/

/-- What point `t` writes back to the vector output is block `t` of `normV` of the arrays at entry. -/
theorem flushedV_eq (c : Dev nD) (t : Fin cfg1.N) :
    (dat1 V c).flushed 8 t = ((cfg1.win 8).blk t).view.read (Elt F) (normV (V c main_arg1) (V c main_v55)) := by
  show (cfg1.win 8).cut (grid1.coords t) ((dat1 V c).after 8 t) = _
  rw [after1_8]
  unfold out1_8
  rw [View.canon_unit_zero hz3]
  simp only [View.ld_unit_zero (S := S2000x3x128) hz3, View.ld_unit_zero (S := S2000x1x1) hz3]
  funext j
  refine (payV_apply _ _ j).trans ?_
  obtain ⟨-, -, -, -, -, -, -, -, -, -, e10, e11, e12, e40, e41, e42, e81, e82, -⟩ := idx_facts t
  show FloatOps.divf (V c main_arg1 (((cfg1.win 1).blk t).view.emb j))
      (V c main_v55 (((cfg1.win 4).blk t).view.emb (ix3 (j 0) (0 : Fin 1) (0 : Fin 1))))
    = FloatOps.divf (V c main_arg1 (((cfg1.win 8).blk t).view.emb j))
      (V c main_v55 (ix3 ((((cfg1.win 8).blk t).view.emb j) 0) (0 : Fin 1) (0 : Fin 1)))
  have h1 : ((cfg1.win 1).blk t).view.emb j = ((cfg1.win 8).blk t).view.emb j := by
    funext a; apply Fin.ext
    match a with
    | ⟨0, _⟩ => show win1_1.index t (0 : Fin 3) * 2000 + 1 * (j 0).val = win1_8.index t (0 : Fin 3) * 2000 + 1 * (j 0).val; omega
    | ⟨1, _⟩ => show win1_1.index t (1 : Fin 3) * 3 + 1 * (j 1).val = win1_8.index t (1 : Fin 3) * 3 + 1 * (j 1).val; omega
    | ⟨2, _⟩ => show win1_1.index t (2 : Fin 3) * 128 + 1 * (j 2).val = win1_8.index t (2 : Fin 3) * 128 + 1 * (j 2).val; omega
  have h4 : ((cfg1.win 4).blk t).view.emb (ix3 (j 0) (0 : Fin 1) (0 : Fin 1))
      = ix3 ((((cfg1.win 8).blk t).view.emb j) 0) (0 : Fin 1) (0 : Fin 1) := by
    funext a; apply Fin.ext
    match a with
    | ⟨0, _⟩ => show win1_4.index t (0 : Fin 3) * 2000 + 1 * (j 0).val = win1_8.index t (0 : Fin 3) * 2000 + 1 * (j 0).val; omega
    | ⟨1, _⟩ => show win1_4.index t (1 : Fin 3) * 1 + 1 * 0 = 0; omega
    | ⟨2, _⟩ => show win1_4.index t (2 : Fin 3) * 1 + 1 * 0 = 0; omega
  rw [h1, h4]
  rfl

/-- An index of the vector output is in point `t`'s block iff each coordinate is in the block's range on its axis. -/
theorem mem_blkV (t : Fin cfg1.N) (i : S200000x3x128.Idx) :
    i ∈ ((cfg1.win 8).blk t).view.set ↔ ∀ a : Fin 3, win1_8.index t a * S2000x3x128.size a ≤ (i a).val
      ∧ (i a).val < win1_8.index t a * S2000x3x128.size a + S2000x3x128.size a := by
  show i ∈ ((View.whole main_v56_1).slice (win1_8.rect t)).set ↔ _
  rw [View.set_slice_whole, Rect.mem_set_unit]
  exact Iff.rfl

/-- Every index of the vector output is in some point's block: row `r` in the block of the point at `r / 2000`. -/
theorem coverV (i : S200000x3x128.Idx) :
    ∃ t : Fin cfg1.N, (cfg1.win 8).flush t = true ∧ i ∈ ((cfg1.win 8).blk t).view.set := by
  have hi0 : (i 0).val < 200000 := (i 0).isLt
  have hi1 : (i 1).val < 3 := (i 1).isLt
  have hi2 : (i 2).val < 128 := (i 2).isLt
  obtain ⟨t, -, ht⟩ := idx_onto ⟨(i 0).val / 2000, by omega⟩
  have q0 : win1_8.index t (0 : Fin 3) = (i 0).val / 2000 := ht
  obtain ⟨-, -, -, -, -, -, -, -, -, -, -, -, -, -, -, -, e81, e82, -⟩ := idx_facts t
  refine ⟨t, flush1_8 t, ?_⟩
  rw [mem_blkV]
  intro a
  match a with
  | ⟨0, _⟩ => show win1_8.index t (0 : Fin 3) * 2000 ≤ (i 0).val ∧ (i 0).val < win1_8.index t (0 : Fin 3) * 2000 + 2000; omega
  | ⟨1, _⟩ => show win1_8.index t (1 : Fin 3) * 3 ≤ (i 1).val ∧ (i 1).val < win1_8.index t (1 : Fin 3) * 3 + 3; omega
  | ⟨2, _⟩ => show win1_8.index t (2 : Fin 3) * 128 ≤ (i 2).val ∧ (i 2).val < win1_8.index t (2 : Fin 3) * 128 + 128; omega

/-- The vector output after the region: `normV` of the arrays at entry. -/
theorem finalV (c : Dev nD) : (dat1 V c).arrAt 8 cfg1.N = normV (V c main_arg1) (V c main_v55) :=
  (dat1 V c).arrAt_eq_of_cover 8 (normV (V c main_arg1) (V c main_v55)) (fun t _ => flushedV_eq V c t) coverV

/-! ## The feature output -/

/-- What point `t` writes back to the feature output is block `t` of `normS` of the arrays at entry. -/
theorem flushedS_eq (c : Dev nD) (t : Fin cfg1.N) :
    (dat1 V c).flushed 7 t = ((cfg1.win 7).blk t).view.read (Elt F)
      (normS (V c main_arg0) (V c main_v53) (V c main_v54) (V c main_arg3) (V c main_arg4)) := by
  show (cfg1.win 7).cut (grid1.coords t) ((dat1 V c).after 7 t) = _
  rw [after1_7]
  unfold out1_7
  rw [View.canon_unit_zero hz2]
  simp only [View.ld_unit_zero (S := S2000x128) hz2, View.ld_unit_zero (S := S2000x1) hz2, View.ld_unit_zero (S := S128) hz1]
  funext j
  refine (payS_apply _ _ _ _ _ j).trans ?_
  obtain ⟨e00, e01, e20, e21, e30, e31, e5, e6, e71, -, -⟩ := idx_facts t
  show FloatOps.addf (FloatOps.mulf (FloatOps.divf (FloatOps.subf (V c main_arg0 (((cfg1.win 0).blk t).view.emb j))
        (V c main_v53 (((cfg1.win 2).blk t).view.emb (ix2 (j 0) (0 : Fin 1)))))
        (V c main_v54 (((cfg1.win 3).blk t).view.emb (ix2 (j 0) (0 : Fin 1)))))
        (V c main_arg3 (((cfg1.win 5).blk t).view.emb (ix1 (j 1)))))
        (V c main_arg4 (((cfg1.win 6).blk t).view.emb (ix1 (j 1))))
    = FloatOps.addf (FloatOps.mulf (FloatOps.divf (FloatOps.subf (V c main_arg0 (((cfg1.win 7).blk t).view.emb j))
        (V c main_v53 (ix2 ((((cfg1.win 7).blk t).view.emb j) 0) (0 : Fin 1))))
        (V c main_v54 (ix2 ((((cfg1.win 7).blk t).view.emb j) 0) (0 : Fin 1))))
        (V c main_arg3 (ix1 ((((cfg1.win 7).blk t).view.emb j) 1))))
        (V c main_arg4 (ix1 ((((cfg1.win 7).blk t).view.emb j) 1)))
  have h0 : ((cfg1.win 0).blk t).view.emb j = ((cfg1.win 7).blk t).view.emb j := by
    funext a; apply Fin.ext
    match a with
    | ⟨0, _⟩ => show win1_0.index t (0 : Fin 2) * 2000 + 1 * (j 0).val = win1_7.index t (0 : Fin 2) * 2000 + 1 * (j 0).val; omega
    | ⟨1, _⟩ => show win1_0.index t (1 : Fin 2) * 128 + 1 * (j 1).val = win1_7.index t (1 : Fin 2) * 128 + 1 * (j 1).val; omega
  have h2 : ((cfg1.win 2).blk t).view.emb (ix2 (j 0) (0 : Fin 1)) = ix2 ((((cfg1.win 7).blk t).view.emb j) 0) (0 : Fin 1) := by
    funext a; apply Fin.ext
    match a with
    | ⟨0, _⟩ => show win1_2.index t (0 : Fin 2) * 2000 + 1 * (j 0).val = win1_7.index t (0 : Fin 2) * 2000 + 1 * (j 0).val; omega
    | ⟨1, _⟩ => show win1_2.index t (1 : Fin 2) * 1 + 1 * 0 = 0; omega
  have h3 : ((cfg1.win 3).blk t).view.emb (ix2 (j 0) (0 : Fin 1)) = ix2 ((((cfg1.win 7).blk t).view.emb j) 0) (0 : Fin 1) := by
    funext a; apply Fin.ext
    match a with
    | ⟨0, _⟩ => show win1_3.index t (0 : Fin 2) * 2000 + 1 * (j 0).val = win1_7.index t (0 : Fin 2) * 2000 + 1 * (j 0).val; omega
    | ⟨1, _⟩ => show win1_3.index t (1 : Fin 2) * 1 + 1 * 0 = 0; omega
  have h5 : ((cfg1.win 5).blk t).view.emb (ix1 (j 1)) = ix1 ((((cfg1.win 7).blk t).view.emb j) 1) := by
    funext a; apply Fin.ext
    match a with
    | ⟨0, _⟩ => show win1_5.index t (0 : Fin 1) * 128 + 1 * (j 1).val = win1_7.index t (1 : Fin 2) * 128 + 1 * (j 1).val; omega
  have h6 : ((cfg1.win 6).blk t).view.emb (ix1 (j 1)) = ix1 ((((cfg1.win 7).blk t).view.emb j) 1) := by
    funext a; apply Fin.ext
    match a with
    | ⟨0, _⟩ => show win1_6.index t (0 : Fin 1) * 128 + 1 * (j 1).val = win1_7.index t (1 : Fin 2) * 128 + 1 * (j 1).val; omega
  rw [h0, h2, h3, h5, h6]
  rfl

/-- An index of the feature output is in point `t`'s block iff each coordinate is in the block's range on its axis. -/
theorem mem_blkS (t : Fin cfg1.N) (i : S200000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v56_0).slice (win1_7.rect t)).set ↔ _
  rw [View.set_slice_whole, Rect.mem_set_unit]
  exact Iff.rfl

/-- Every index of the feature output is in some point's block: row `r` in the block of the point at `r / 2000`. -/
theorem coverS (i : S200000x128.Idx) :
    ∃ t : Fin cfg1.N, (cfg1.win 7).flush t = true ∧ i ∈ ((cfg1.win 7).blk t).view.set := by
  have hi0 : (i 0).val < 200000 := (i 0).isLt
  have hi1 : (i 1).val < 128 := (i 1).isLt
  obtain ⟨t, ht, -⟩ := idx_onto ⟨(i 0).val / 2000, by omega⟩
  have q0 : win1_7.index t (0 : Fin 2) = (i 0).val / 2000 := ht
  obtain ⟨-, -, -, -, -, -, -, -, e71, -, -⟩ := idx_facts t
  refine ⟨t, flush1_7 t, ?_⟩
  rw [mem_blkS]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- The feature output after the region: `normS` of the arrays at entry. -/
theorem finalS (c : Dev nD) : (dat1 V c).arrAt 7 cfg1.N
    = normS (V c main_arg0) (V c main_v53) (V c main_v54) (V c main_arg3) (V c main_arg4) :=
  (dat1 V c).arrAt_eq_of_cover 7 (normS (V c main_arg0) (V c main_v53) (V c main_v54) (V c main_arg3) (V c main_arg4))
    (fun t _ => flushedS_eq V c t) coverS

end Cert.KernelIdeal.R1Value

end
-- ==== Proof.HostChain.lean ====
/-
  The contents the second kernel region is entered with.  Between the two regions the program flattens the first
  region's three columns to per-node arrays `a` (row means), `a₂` (row means of squares), `a₃` (mean squared norms),
  and computes, with the node indices `idx`:
      μ  = the segment mean of `a` read back per node,
      the variance column: the segment mean of `a₂ - 2·μ·a + μ²`, floored at ε, read back per node,
      the norm column:     the segment mean of `a₃`, floored at ε, read back per node,
  each kept as a column for the second region.
-/
import proofs.«115249_j37254546325938_1_alg».proof.Proof.Gen.KernelIdeal.Frame
import proofs.«115249_j37254546325938_1_alg».proof.Proof.Spec
import Idealize.ShloMosaic.Lib.StableHlo.Run

set_option maxRecDepth 16384

noncomputable section

namespace Cert.KernelIdeal.HostChain

open Cert.KernelIdeal Cert.KernelIdeal.Gen Cert.SegNorm
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem segAdd_eq : scatter_S512_S200000x1_S200000_n_0_0_1 = segAddDims := rfl
theorem take_eq : gather_S512_S200000x1_S200000_n_0_n_n_0_1_1 = takeDims := rfl

/-- The first region's column `w` (2, 3 or 4), flattened to a per-node array. -/
abbrev flat (x : FVec F NodesCol .f32) : FVec F Nodes .f32 := shapeCast Nodes x shapeCasts_S200000x1_S200000

set_option maxHeartbeats 40000000 in
/-- The mean column the second region reads. -/
theorem W2_v53 (c : Dev nD) :
    W2 m ρ c (Proc.devRef .tc main_v53) = broadcastInDim NodesCol ![0] nodes_col
      (perNode (W1 m ρ c (Proc.devRef .tc main_arg2)) (segMean (W1 m ρ c (Proc.devRef .tc main_arg2))
        (flat (W1 m ρ c (Proc.devRef .tc main_v0_0))))) := by
  show StableHlo.after hostOps1 (W1 m ρ c) (Proc.devRef .tc main_v53) = _
  after_results
  rw [segAdd_eq, take_eq]
  rfl

set_option maxHeartbeats 40000000 in
/-- The variance column the second region reads. -/
theorem W2_v54 (c : Dev nD) :
    W2 m ρ c (Proc.devRef .tc main_v54) = broadcastInDim NodesCol ![0] nodes_col
      (flooredPerNode (W1 m ρ c (Proc.devRef .tc main_arg2)) (segMean (W1 m ρ c (Proc.devRef .tc main_arg2))
        (nodeVarExpanded (flat (W1 m ρ c (Proc.devRef .tc main_v0_1))) (flat (W1 m ρ c (Proc.devRef .tc main_v0_0)))
          (perNode (W1 m ρ c (Proc.devRef .tc main_arg2)) (segMean (W1 m ρ c (Proc.devRef .tc main_arg2))
            (flat (W1 m ρ c (Proc.devRef .tc main_v0_0)))))))) := by
  show StableHlo.after hostOps1 (W1 m ρ c) (Proc.devRef .tc main_v54) = _
  after_results
  rw [segAdd_eq, take_eq]
  rfl

set_option maxHeartbeats 40000000 in
/-- The norm column the second region reads. -/
theorem W2_v55 (c : Dev nD) :
    W2 m ρ c (Proc.devRef .tc main_v55) = broadcastInDim NodesCol3 ![0] nodes_col3
      (flooredPerNode (W1 m ρ c (Proc.devRef .tc main_arg2)) (segMean (W1 m ρ c (Proc.devRef .tc main_arg2))
        (flat (W1 m ρ c (Proc.devRef .tc main_v0_2))))) := by
  show StableHlo.after hostOps1 (W1 m ρ c) (Proc.devRef .tc main_v55) = _
  after_results
  rw [segAdd_eq, take_eq]
  rfl

end Cert.KernelIdeal.HostChain

end
-- ==== Proof.HostArgs.lean ====
/-
  The five argument arrays are as launched when the second kernel region is entered: the first region only reads
  `s` and `v` (and has no window on the others), and no operation between the regions writes an argument.
-/
import proofs.«115249_j37254546325938_1_alg».proof.Proof.Gen.KernelIdeal.Frame
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Nothing between the launch and the second region writes an argument -/

set_option maxHeartbeats 40000000 in
/-- No operation of the stretch between the regions writes `b` when `b` is none of its results. -/
theorem W2_of_arg (c : Dev nD) (b : Ref sig .tc)
    (hb : b = main_arg0 ∨ b = main_arg1 ∨ b = main_arg2 ∨ b = main_arg3 ∨ b = main_arg4) :
    W2 m ρ c (Proc.devRef .tc b) = W1 m ρ c (Proc.devRef .tc b) := by
  rcases hb with rfl | rfl | rfl | rfl | rfl <;>
  exact StableHlo.after_of_forall_not_mem (b := Proc.devRef .tc _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The first region's two input arrays leave it as they entered. -/
theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_main_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))
/-- The first region has no window on the other three arguments. -/
theorem W1_main_arg2 (c : Dev nD) : W1 m ρ c (Proc.devRef .tc main_arg2) = m ((c : Thread nD τ).loc main_arg2) :=
  W1_of_ne m ρ c main_arg2 (by decide)
theorem W1_main_arg3 (c : Dev nD) : W1 m ρ c (Proc.devRef .tc main_arg3) = m ((c : Thread nD τ).loc main_arg3) :=
  W1_of_ne m ρ c main_arg3 (by decide)
theorem W1_main_arg4 (c : Dev nD) : W1 m ρ c (Proc.devRef .tc main_arg4) = m ((c : Thread nD τ).loc main_arg4) :=
  W1_of_ne m ρ c main_arg4 (by decide)

theorem W2_main_arg0 (c : Dev nD) : W2 m ρ c (Proc.devRef .tc main_arg0) = m ((c : Thread nD τ).loc main_arg0) :=
  (W2_of_arg m ρ c main_arg0 (.inl rfl)).trans (W1_main_arg0 m ρ c)
theorem W2_main_arg1 (c : Dev nD) : W2 m ρ c (Proc.devRef .tc main_arg1) = m ((c : Thread nD τ).loc main_arg1) :=
  (W2_of_arg m ρ c main_arg1 (.inr (.inl rfl))).trans (W1_main_arg1 m ρ c)
theorem W2_main_arg3 (c : Dev nD) : W2 m ρ c (Proc.devRef .tc main_arg3) = m ((c : Thread nD τ).loc main_arg3) :=
  (W2_of_arg m ρ c main_arg3 (.inr (.inr (.inr (.inl rfl))))).trans (W1_main_arg3 m ρ c)
theorem W2_main_arg4 (c : Dev nD) : W2 m ρ c (Proc.devRef .tc main_arg4) = m ((c : Thread nD τ).loc main_arg4) :=
  (W2_of_arg m ρ c main_arg4 (.inr (.inr (.inr (.inr rfl))))).trans (W1_main_arg4 m ρ c)

end Cert.KernelIdeal.HostChain

end
-- ==== Proof.SpecReads.lean ====
/-
  The specification read at an entry, and the first region's columns, flattened, as the specification's row means.
-/
import proofs.«115249_j37254546325938_1_alg».proof.Proof.Columns
import Idealize.ShloMosaic.Lib.Pipeline.Value
import Idealize.ShloMosaic.PureOps.Ideal.Laws

noncomputable section

open scoped BigOperators

namespace Cert.SegNorm

open Idealize.ShloMosaic Idealize.ShloMosaic.ValueIdx

private theorem nodesConst_apply (w : BitVec 32) (i : Nodes.Idx) :
    nodesConst (F := Ideal) w i = Ideal.ofBits .f32 w := rfl

/-- The host's sum over the channels of a node's row, read at the node. -/
private theorem chanSum_apply (x : FVec Ideal NodesChan .f32) (n : Fin 200000) :
    Host.reduceAdd (F := Ideal) x (constant Sc .f32 0x00000000#32) chan_sums sc_pos (ix1 n) = ∑ k : Fin 128, x (ix2 n k) := by
  simp only [Host.reduceAdd, Ideal.hostReduceAdd_def]
  rw [Ideal.hostReduceAdd_single chan_sums (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

/-- The host's sum over a node's three vector rows, read at the node and channel. -/
private theorem vecSum_apply (v : FVec Ideal NodesVec .f32) (n : Fin 200000) (k : Fin 128) :
    vecSum (F := Ideal) v (ix2 n k) = ∑ r : Fin 3, v (ix3 n r k) := by
  unfold vecSum
  simp only [Host.reduceAdd, Ideal.hostReduceAdd_def]
  rw [Ideal.hostReduceAdd_single vec_sums (by decide)]
  show Ideal.ofBits .f32 0x00000000#32 + _ = _
  rw [Ideal.ofBits_zero_f32, zero_add]
  refine Finset.sum_congr rfl fun r _ => ?_
  exact congrArg v (funext fun a => Fin.ext (by match a with | ⟨0, _⟩ => rfl | ⟨1, _⟩ => rfl | ⟨2, _⟩ => rfl))

private theorem rowMean_apply (x : FVec Ideal NodesChan .f32) (n : Fin 200000) :
    rowMean (F := Ideal) x (ix1 n) = Ideal.div (∑ k : Fin 128, x (ix2 n k)) chans := by
  unfold rowMean
  show Ideal.div (Host.reduceAdd x (constant Sc .f32 0x00000000#32) chan_sums sc_pos (ix1 n)) (nodesConst (F := Ideal) 0x43000000#32 (ix1 n)) = _
  rw [nodesConst_apply, chanSum_apply]

/-- The flattening of a column reads row `n` of the column. -/
private theorem cast_col_apply {α : Type} (c : NodesCol.Idx → α) (h : NodesCol.ShapeCasts Nodes) (n : Fin 200000) :
    shapeCast Nodes c h (ix1 n) = c (ix2 n (0 : Fin 1)) := by
  refine shapeCast_apply c h (ix1 n) (ix2 n (0 : Fin 1)) ?_
  rw [Shape.rowMajor_val_one, Shape.rowMajor_val_two]
  show n.val * 1 + 0 = n.val
  omega

/-- The column of row means, flattened, is the row mean. -/
theorem cast_colMean (x : FVec Ideal NodesChan .f32) (h : NodesCol.ShapeCasts Nodes) :
    shapeCast Nodes (colMean x) h = rowMean (F := Ideal) x := by
  funext j
  obtain ⟨n, rfl⟩ : ∃ n : Fin 200000, j = ix1 n := ⟨j 0, eq_ix1 j⟩
  rw [cast_col_apply, rowMean_apply]
  rfl

/-- The column of row means of squares, flattened, is the row mean of the square. -/
theorem cast_colMeanSq (x : FVec Ideal NodesChan .f32) (h : NodesCol.ShapeCasts Nodes) :
    shapeCast Nodes (colMeanSq x) h = rowMean (F := Ideal) (mulf x x) := by
  funext j
  obtain ⟨n, rfl⟩ : ∃ n : Fin 200000, j = ix1 n := ⟨j 0, eq_ix1 j⟩
  rw [cast_col_apply, rowMean_apply]
  rfl

/-- The column of mean squared norms, flattened, is the node norm. -/
theorem cast_colNorm (v : FVec Ideal NodesVec .f32) (h : NodesCol.ShapeCasts Nodes) :
    shapeCast Nodes (colNorm v) h = nodeNorm (F := Ideal) v := by
  funext j
  obtain ⟨n, rfl⟩ : ∃ n : Fin 200000, j = ix1 n := ⟨j 0, eq_ix1 j⟩
  rw [cast_col_apply]
  unfold nodeNorm
  rw [rowMean_apply]
  simp only [vecSum_apply]
  rfl

variable {F : FTy → Type} [FloatOps F]

/-- A per-node array kept as a column, read at row `n`. -/
theorem col_apply {α : Type} (x : Nodes.Idx → α) (n : Fin 200000) :
    broadcastInDim NodesCol ![0] nodes_col x (ix2 n (0 : Fin 1)) = x (ix1 n) := by
  refine broadcastInDim_apply _ nodes_col x (ix2 n (0 : Fin 1)) (ix1 n) (fun a => ?_)
  match a with
  | ⟨0, _⟩ => show n.val = if (200000 : Nat) = 1 then 0 else n.val; rw [if_neg (by decide)]

/-- A per-node array kept as a `[n, 1, 1]` block, read at row `n`. -/
theorem col3_apply {α : Type} (x : Nodes.Idx → α) (n : Fin 200000) :
    broadcastInDim NodesCol3 ![0] nodes_col3 x (ix3 n (0 : Fin 1) (0 : Fin 1)) = x (ix1 n) := by
  refine broadcastInDim_apply _ nodes_col3 x (ix3 n (0 : Fin 1) (0 : Fin 1)) (ix1 n) (fun a => ?_)
  match a with
  | ⟨0, _⟩ => show n.val = if (200000 : Nat) = 1 then 0 else n.val; rw [if_neg (by decide)]

/-- A per-node array spread along the channels, read at node `n`. -/
private theorem alongChan_apply (x : FVec F Nodes .f32) (n : Fin 200000) (k : Fin 128) :
    alongChan x (ix2 n k) = x (ix1 n) := by
  unfold alongChan
  rw [broadcastInDim_apply _ col_chan _ (ix2 n k) (ix2 n (0 : Fin 1)) (fun a => ?_), col_apply]
  match a with
  | ⟨0, _⟩ => show n.val = if (200000 : Nat) = 1 then 0 else n.val; rw [if_neg (by decide)]
  | ⟨1, _⟩ => show 0 = if (1 : Nat) = 1 then 0 else k.val; rw [if_pos rfl]

/-- A per-node array spread along the vector rows and the channels, read at node `n`. -/
private theorem alongVec_apply (x : FVec F Nodes .f32) (n : Fin 200000) (r : Fin 3) (k : Fin 128) :
    alongVec x (ix3 n r k) = x (ix1 n) := by
  unfold alongVec
  rw [broadcastInDim_apply _ col3_vec _ (ix3 n r k) (ix3 n (0 : Fin 1) (0 : Fin 1)) (fun a => ?_), col3_apply]
  match a with
  | ⟨0, _⟩ => show n.val = if (200000 : Nat) = 1 then 0 else n.val; rw [if_neg (by decide)]
  | ⟨1, _⟩ => show 0 = if (1 : Nat) = 1 then 0 else r.val; rw [if_pos rfl]
  | ⟨2, _⟩ => show 0 = if (1 : Nat) = 1 then 0 else k.val; rw [if_pos rfl]

/-- A per-channel array spread along the nodes, read at channel `k`. -/
private theorem alongNodes_apply (x : FVec F Chan .f32) (n : Fin 200000) (k : Fin 128) :
    alongNodes x (ix2 n k) = x (ix1 k) := by
  unfold alongNodes
  rw [broadcastInDim_apply _ row_chan _ (ix2 n k) (ix2 (0 : Fin 1) k) (fun a => ?_),
    broadcastInDim_apply _ chan_row x (ix2 (0 : Fin 1) k) (ix1 k) (fun a => ?_)]
  · match a with
    | ⟨0, _⟩ => show k.val = if (128 : Nat) = 1 then 0 else k.val; rw [if_neg (by decide)]
  · match a with
    | ⟨0, _⟩ => show 0 = if (1 : Nat) = 1 then 0 else n.val; rw [if_pos rfl]
    | ⟨1, _⟩ => show k.val = if (128 : Nat) = 1 then 0 else k.val; rw [if_neg (by decide)]

/-- `sOut` at node `n`, channel `k`. -/
theorem sOut_apply (s : FVec F NodesChan .f32) (idx : IVec Nodes 32) (w b : FVec F Chan .f32) (n : Fin 200000) (k : Fin 128) :
    sOut s idx w b (ix2 n k) = FloatOps.addf (FloatOps.mulf (FloatOps.hostDivf (FloatOps.subf (s (ix2 n k)) (nodeMean s idx (ix1 n)))
      (graphVar s idx (ix1 n))) (w (ix1 k))) (b (ix1 k)) := by
  show FloatOps.addf (FloatOps.mulf (FloatOps.hostDivf (FloatOps.subf (s (ix2 n k)) (alongChan (nodeMean s idx) (ix2 n k)))
      (alongChan (graphVar s idx) (ix2 n k))) (alongNodes w (ix2 n k))) (alongNodes b (ix2 n k)) = _
  rw [alongChan_apply, alongChan_apply, alongNodes_apply, alongNodes_apply]

/-- `vOut` at node `n`, vector row `r`, channel `k`. -/
theorem vOut_apply (v : FVec F NodesVec .f32) (idx : IVec Nodes 32) (n : Fin 200000) (r : Fin 3) (k : Fin 128) :
    vOut v idx (ix3 n r k) = FloatOps.hostDivf (v (ix3 n r k)) (graphNorm v idx (ix1 n)) := by
  show FloatOps.hostDivf (v (ix3 n r k)) (alongVec (graphNorm v idx) (ix3 n r k)) = _
  rw [alongVec_apply]

end Cert.SegNorm

end
-- ==== Proof.Variance.lean ====
/-
  The variance a node contributes, expanded.  With `μ` the (real) mean of the node's graph and `x k` the node's 128 real
  features,  mean_k (x k - μ)² = mean_k (x k)² - 2·μ·mean_k (x k) + μ²:  the square expands entry by entry, the sum
  distributes over the three terms, and the constant `μ²` summed 128 times and divided by 128 is `μ²`.  It holds in the
  reals, so the two sides must first be shown real: the features by hypothesis, the mean because a sum of reals over
  the nodes of a graph, divided by a count that is at least one, is real, and reading a table back per node picks entries.
-/
import proofs.«115249_j37254546325938_1_alg».proof.Proof.Columns
import Idealize.ShloMosaic.Lib.Pipeline.Value
import Idealize.ShloMosaic.PureOps.Ideal.Laws

noncomputable section

open scoped BigOperators

namespace Cert.SegNorm

open Idealize.ShloMosaic Idealize.ShloMosaic.ValueIdx

/-- A finite sum of coerced reals is the coerced sum. -/
private theorem coe_sum {ι : Type*} (S : Finset ι) (g : ι → ℝ) :
    ∑ i ∈ S, ((g i : ℝ) : EReal) = ((∑ i ∈ S, g i : ℝ) : EReal) := by
  classical
  induction S using Finset.induction_on with
  | empty => simp
  | insert a S ha ih => rw [Finset.sum_insert ha, Finset.sum_insert ha, ih, EReal.coe_add]

/-- A finite sum of reals is real. -/
private theorem real_sum {ι : Type*} (S : Finset ι) (f : ι → EReal) (h : ∀ i, ∃ r : ℝ, f i = (r : EReal)) :
    ∃ r : ℝ, ∑ i ∈ S, f i = (r : EReal) := by
  choose g hg using h
  exact ⟨∑ i ∈ S, g i, by rw [← coe_sum]; exact Finset.sum_congr rfl fun i _ => hg i⟩

/-- A real divided by a nonzero real is real. -/
private theorem real_div {x y : EReal} (hx : ∃ r : ℝ, x = (r : EReal)) (hy : ∃ r : ℝ, y = (r : EReal) ∧ r ≠ 0) :
    ∃ r : ℝ, Ideal.div x y = (r : EReal) := by
  obtain ⟨a, rfl⟩ := hx
  obtain ⟨b, rfl, hb⟩ := hy
  exact ⟨a * (1 / b), by rw [Ideal.div_coe hb, EReal.coe_mul]⟩

private theorem one_f32 : Ideal.ofBits .f32 0x3F800000#32 = ((1 : ℝ) : EReal) := by
  simp [Ideal.ofBits, Ideal.ieee, -EReal.coe_mul] <;> norm_num

private theorem chans_f32 : Ideal.ofBits .f32 0x43000000#32 = ((128 : ℝ) : EReal) := by
  simp [Ideal.ofBits, Ideal.ieee, -EReal.coe_mul] <;> norm_num

private theorem two_f32 : Ideal.ofBits .f32 0x40000000#32 = ((2 : ℝ) : EReal) := by
  simp [Ideal.ofBits, Ideal.ieee, -EReal.coe_mul] <;> norm_num

private theorem zero_f32 : Ideal.ofBits .f32 0x00000000#32 = ((0 : ℝ) : EReal) := by
  rw [Ideal.ofBits_zero_f32, EReal.coe_zero]

/-- The larger of a real and one is a nonzero real. -/
private theorem real_max_one (t : ℝ) : ∃ r : ℝ, max (t : EReal) ((1 : ℝ) : EReal) = (r : EReal) ∧ r ≠ 0 := by
  rcases le_total t 1 with h | h
  · exact ⟨1, max_eq_right (EReal.coe_le_coe_iff.mpr h), one_ne_zero⟩
  · exact ⟨t, max_eq_left (EReal.coe_le_coe_iff.mpr h), by linarith⟩

/-- A per-graph constant table reads its word everywhere. -/
private theorem graphsConst_apply (w : BitVec 32) (g : Graphs.Idx) :
    graphsConst (F := Ideal) w g = Ideal.ofBits .f32 w := rfl

/-- A per-node constant array reads its word everywhere. -/
private theorem nodesConst_apply (w : BitVec 32) (n : Nodes.Idx) :
    nodesConst (F := Ideal) w n = Ideal.ofBits .f32 w := rfl

/-- The sums of a real per-node array over the graphs are real. -/
private theorem segSum_real (idx : IVec Nodes 32) (x : FVec Ideal Nodes .f32) (hx : AllReal x) :
    AllReal (segSum (F := Ideal) idx x) := by
  intro g
  unfold segSum Host.scatterAdd
  rw [Ideal.hostScatterAdd_def]
  unfold Ideal.hostScatterAdd
  obtain ⟨t, ht⟩ := real_sum (Finset.univ.filter fun j => segAddDims.resultIdx? j (idxCol idx) = some g) x hx
  refine ⟨0 + t, ?_⟩
  rw [ht, graphsConst_apply, zero_f32, ← EReal.coe_add]

/-- The node counts are nonzero reals. -/
private theorem counts_real (idx : IVec Nodes 32) (g : Graphs.Idx) :
    ∃ r : ℝ, counts (F := Ideal) idx g = (r : EReal) ∧ r ≠ 0 := by
  obtain ⟨t, ht⟩ := segSum_real idx (nodesConst 0x3F800000#32) (fun n => ⟨1, by rw [nodesConst_apply, one_f32]⟩) g
  unfold counts
  rw [maximumf_apply, ht, graphsConst_apply, one_f32]
  exact real_max_one t

/-- The means of a real per-node array over the graphs are real. -/
private theorem segMean_real (idx : IVec Nodes 32) (x : FVec Ideal Nodes .f32) (hx : AllReal x) :
    AllReal (segMean (F := Ideal) idx x) := by
  intro g
  simp only [segMean, Host.divf, Ideal.hostDivf_def]
  exact real_div (segSum_real idx x hx g) (counts_real idx g)

/-- The row means of a real array are real. -/
private theorem rowMean_real (x : FVec Ideal NodesChan .f32) (hx : AllReal x) : AllReal (rowMean (F := Ideal) x) := by
  intro n
  show ∃ r : ℝ, Ideal.div (Ideal.hostReduceAdd chan_sums x (Ideal.ofBits .f32 0x00000000#32) n)
    (Ideal.ofBits .f32 0x43000000#32) = (r : EReal)
  refine real_div ?_ ⟨128, chans_f32, by norm_num⟩
  unfold Ideal.hostReduceAdd
  obtain ⟨t, ht⟩ := real_sum (Finset.univ.filter fun i => chan_sums.drop i = n) x hx
  exact ⟨0 + t, by rw [ht, zero_f32, ← EReal.coe_add]⟩

/-- The mean of a node's graph is a real number when the features are. -/
theorem nodeMean_real (s : FVec Ideal NodesChan .f32) (idx : IVec Nodes 32) (hs : AllReal s) :
    AllReal (nodeMean (F := Ideal) s idx) := by
  intro n
  exact segMean_real idx (rowMean s) (rowMean_real s hs) (takeDims.operandIdx n (wrapCol idx))

/-- Over the reals: the mean squared deviation from `μ` of 128 numbers is the mean of their squares, less twice `μ`
    times their mean, plus `μ²`. -/
private theorem var_expand_real (x : Fin 128 → ℝ) (μ : ℝ) :
    ((∑ k, x k * x k) * (1 / 128) - (2 * μ) * ((∑ k, x k) * (1 / 128))) + μ * μ
      = (∑ k, (x k - μ) * (x k - μ)) * (1 / 128) := by
  have h : ∑ k, (x k - μ) * (x k - μ) = ∑ k, x k * x k - 2 * μ * ∑ k, x k + 128 * (μ * μ) := by
    have e : ∀ k, (x k - μ) * (x k - μ) = x k * x k - 2 * μ * x k + μ * μ := fun k => by ring
    simp only [e, Finset.sum_add_distrib, Finset.sum_sub_distrib, ← Finset.mul_sum, Finset.sum_const,
      Finset.card_univ, Fintype.card_fin, nsmul_eq_mul]
    push_cast
    ring
  rw [h]; ring

/-- A row mean at a node: the sum of the row's 128 entries divided by 128. -/
private theorem rowMean_apply (x : FVec Ideal NodesChan .f32) (a : Fin 200000) :
    rowMean (F := Ideal) x (ix1 a) = (∑ k : Fin 128, x (ix2 a k)) * (((1 / 128 : ℝ)) : EReal) := by
  simp only [rowMean, Host.divf, Host.reduceAdd, Ideal.hostReduceAdd_def, Ideal.hostDivf_def]
  rw [Ideal.hostReduceAdd_single chan_sums (by decide), nodesConst_apply, constant_apply, Ideal.ofBits_zero_f32, zero_add,
    chans_f32, Ideal.div_coe (y := 128) (by norm_num)]
  refine congrArg (· * (((1 / 128 : ℝ)) : EReal)) (Finset.sum_congr rfl fun k _ => ?_)
  exact congrArg x (funext fun b => Fin.ext (by match b with | ⟨0, _⟩ => rfl | ⟨1, _⟩ => rfl))

/-- A per-node array spread along the channels reads the node's entry. -/
private theorem alongChan_apply (x : FVec Ideal Nodes .f32) (a : Fin 200000) (k : Fin 128) :
    alongChan (F := Ideal) x (ix2 a k) = x (ix1 a) := by
  unfold alongChan
  rw [broadcastInDim_apply ![0, 1] col_chan _ (ix2 a k) (ix2 a 0)
      (fun b => by match b with | ⟨0, _⟩ => rfl | ⟨1, _⟩ => rfl),
    broadcastInDim_apply ![0] nodes_col x (ix2 a 0) (ix1 a) (fun b => by match b with | ⟨0, _⟩ => rfl)]

/-- The expanded form of a node's variance is the mean squared centred feature, for real features. -/
theorem nodeVar_expanded (s : FVec Ideal NodesChan .f32) (idx : IVec Nodes 32) (hs : AllReal s) :
    nodeVarExpanded (rowMean (mulf s s)) (rowMean s) (nodeMean s idx) = nodeVar (F := Ideal) s idx := by
  funext n
  obtain ⟨a, rfl⟩ : ∃ a, n = ix1 a := ⟨n 0, eq_ix1 n⟩
  obtain ⟨m, hm⟩ := nodeMean_real s idx hs (ix1 a)
  choose f hf using hs
  have hsq : rowMean (F := Ideal) (mulf s s) (ix1 a)
      = (((∑ k : Fin 128, f (ix2 a k) * f (ix2 a k)) * (1 / 128) : ℝ) : EReal) := by
    rw [rowMean_apply]
    simp only [mulf_apply, hf, ← EReal.coe_mul, coe_sum]
  have hmean : rowMean (F := Ideal) s (ix1 a) = (((∑ k : Fin 128, f (ix2 a k)) * (1 / 128) : ℝ) : EReal) := by
    rw [rowMean_apply]
    simp only [hf, ← EReal.coe_mul, coe_sum]
  have hvar : nodeVar (F := Ideal) s idx (ix1 a)
      = (((∑ k : Fin 128, (f (ix2 a k) - m) * (f (ix2 a k) - m)) * (1 / 128) : ℝ) : EReal) := by
    unfold nodeVar
    rw [rowMean_apply]
    simp only [mulf_apply, centred, subf_apply, alongChan_apply, hm, hf, ← EReal.coe_sub, ← EReal.coe_mul, coe_sum]
  rw [hvar, ← var_expand_real]
  unfold nodeVarExpanded
  rw [addf_apply, subf_apply, mulf_apply, mulf_apply, mulf_apply, nodesConst_apply, two_f32, hm, hsq, hmean]
  simp only [← EReal.coe_mul, ← EReal.coe_sub, ← EReal.coe_add]

end Cert.SegNorm

end
-- ==== Proof.KernelValue.lean ====
/-
  The idealized kernel program's two results are the specification's `sOut` and `vOut` of the arguments.

  The second region writes `((s - p)/q)·w + b` and `v/u` over the columns `p`, `q`, `u` it is entered with; the stretch
  between the regions makes those columns from the first region's three columns of means.  Flattened, the first
  region's columns are the specification's row means, so `p` is the graph mean `μ` per node and `u` the floored graph norm
  per node, as in the specification.  For `q` the program averages `mean(s²) - 2·μ·mean(s) + μ²` over each graph where
  the specification averages `mean((s - μ)²)`: the same number for real features (the one place the precondition is used).
-/
import proofs.«115249_j37254546325938_1_alg».proof.Proof.Region0Value
import proofs.«115249_j37254546325938_1_alg».proof.Proof.Region1Value
import proofs.«115249_j37254546325938_1_alg».proof.Proof.HostChain
import proofs.«115249_j37254546325938_1_alg».proof.Proof.HostArgs
import proofs.«115249_j37254546325938_1_alg».proof.Proof.SpecReads
import proofs.«115249_j37254546325938_1_alg».proof.Proof.Variance

set_option maxRecDepth 16384

noncomputable section

namespace Cert.KernelIdeal.KValue

open Cert.KernelIdeal Cert.KernelIdeal.Gen Cert.SegNorm Cert.KernelIdeal.HostChain Cert.KernelIdeal.R1Value
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first region's column of row means, flattened, is the specification's row mean of `s`. -/
theorem flat_v0_0 (c : Dev nD) :
    flat (W1 m ρ c (Proc.devRef .tc main_v0_0)) = rowMean (F := Ideal) (m ((c : Thread nD τ).loc main_arg0)) := by
  rw [show W1 m ρ c (Proc.devRef .tc main_v0_0) = (dat0 (V0 m ρ) c).arrAt 2 cfg0.N from W1_arr m ρ c 2, R0Value.final2]
  exact cast_colMean _ _

/-- The first region's column of row means of squares, flattened, is the row mean of `s²`. -/
theorem flat_v0_1 (c : Dev nD) :
    flat (W1 m ρ c (Proc.devRef .tc main_v0_1))
      = rowMean (F := Ideal) (mulf (m ((c : Thread nD τ).loc main_arg0)) (m ((c : Thread nD τ).loc main_arg0))) := by
  rw [show W1 m ρ c (Proc.devRef .tc main_v0_1) = (dat0 (V0 m ρ) c).arrAt 3 cfg0.N from W1_arr m ρ c 3, R0Value.final3]
  exact cast_colMeanSq _ _

/-- The first region's column of mean squared norms, flattened, is the node norm of `v`. -/
theorem flat_v0_2 (c : Dev nD) :
    flat (W1 m ρ c (Proc.devRef .tc main_v0_2)) = nodeNorm (F := Ideal) (m ((c : Thread nD τ).loc main_arg1)) := by
  rw [show W1 m ρ c (Proc.devRef .tc main_v0_2) = (dat0 (V0 m ρ) c).arrAt 4 cfg0.N from W1_arr m ρ c 4, R0Value.final4]
  exact cast_colNorm _ _

/-- The column `p`: the graph mean per node. -/
theorem col_mean (c : Dev nD) :
    V2 m ρ c main_v53 = broadcastInDim NodesCol ![0] nodes_col
      (nodeMean (F := Ideal) (m ((c : Thread nD τ).loc main_arg0)) (m ((c : Thread nD τ).loc main_arg2))) := by
  show W2 m ρ c (Proc.devRef .tc main_v53) = _
  rw [W2_v53, flat_v0_0, W1_main_arg2]
  rfl

/-- The column `q`: the floored graph variance per node, for real features. -/
theorem col_var (c : Dev nD) (hs : AllReal (m ((c : Thread nD τ).loc main_arg0))) :
    V2 m ρ c main_v54 = broadcastInDim NodesCol ![0] nodes_col
      (graphVar (F := Ideal) (m ((c : Thread nD τ).loc main_arg0)) (m ((c : Thread nD τ).loc main_arg2))) := by
  show W2 m ρ c (Proc.devRef .tc main_v54) = _
  rw [W2_v54, flat_v0_0, flat_v0_1, W1_main_arg2]
  show broadcastInDim NodesCol ![0] nodes_col (flooredPerNode _ (segMean _ (nodeVarExpanded _ _ (nodeMean _ _)))) = _
  rw [nodeVar_expanded _ _ hs]
  rfl

/-- The column `u`: the floored graph norm per node. -/
theorem col_norm (c : Dev nD) :
    V2 m ρ c main_v55 = broadcastInDim NodesCol3 ![0] nodes_col3
      (graphNorm (F := Ideal) (m ((c : Thread nD τ).loc main_arg1)) (m ((c : Thread nD τ).loc main_arg2))) := by
  show W2 m ρ c (Proc.devRef .tc main_v55) = _
  rw [W2_v55, flat_v0_2, W1_main_arg2]
  rfl

/-- The second result: `vOut`. -/
theorem out1 (c : Dev nD) :
    W3 m ρ c (Proc.devRef .tc main_v56_1)
      = vOut (F := Ideal) (m ((c : Thread nD τ).loc main_arg1)) (m ((c : Thread nD τ).loc main_arg2)) := by
  rw [show W3 m ρ c (Proc.devRef .tc main_v56_1) = (dat1 (V2 m ρ) c).arrAt 8 cfg1.N from W3_arr m ρ c 8, finalV, col_norm]
  rw [show V2 m ρ c main_arg1 = m ((c : Thread nD τ).loc main_arg1) from W2_main_arg1 m ρ c]
  funext i
  obtain ⟨n, r, k, rfl⟩ : ∃ (n : Fin 200000) (r : Fin 3) (k : Fin 128), i = ix3 n r k := ⟨i 0, i 1, i 2, eq_ix3 i⟩
  rw [vOut_apply]
  unfold normV
  rw [col3_apply]
  rfl

/-- The first result: `sOut`, for real features. -/
theorem out0 (c : Dev nD) (hs : AllReal (m ((c : Thread nD τ).loc main_arg0))) :
    W3 m ρ c (Proc.devRef .tc main_v56_0)
      = sOut (F := Ideal) (m ((c : Thread nD τ).loc main_arg0)) (m ((c : Thread nD τ).loc main_arg2))
          (m ((c : Thread nD τ).loc main_arg3)) (m ((c : Thread nD τ).loc main_arg4)) := by
  rw [show W3 m ρ c (Proc.devRef .tc main_v56_0) = (dat1 (V2 m ρ) c).arrAt 7 cfg1.N from W3_arr m ρ c 7, finalS, col_mean,
    col_var m ρ c hs]
  rw [show V2 m ρ c main_arg0 = m ((c : Thread nD τ).loc main_arg0) from W2_main_arg0 m ρ c,
    show V2 m ρ c main_arg3 = m ((c : Thread nD τ).loc main_arg3) from W2_main_arg3 m ρ c,
    show V2 m ρ c main_arg4 = m ((c : Thread nD τ).loc main_arg4) from W2_main_arg4 m ρ c]
  funext i
  obtain ⟨n, k, rfl⟩ : ∃ (n : Fin 200000) (k : Fin 128), i = ix2 n k := ⟨i 0, i 1, eq_ix2 i⟩
  rw [sOut_apply]
  unfold normS
  rw [col_apply, col_apply]
  rfl

end Cert.KernelIdeal.KValue

end
-- ==== Proof.RefValue.lean ====
/-
  The reference program's two results are the specification's `sOut` and `vOut` of its arguments: the program's
  operations, composed in program order, ARE those terms (its dimension records are the specification's).
-/
import proofs.«115249_j37254546325938_1_alg».proof.Proof.Gen.ReferenceIdeal.Run
import proofs.«115249_j37254546325938_1_alg».proof.Proof.Spec

noncomputable section

namespace Cert.ReferenceIdeal.RefValue

open Cert.ReferenceIdeal Cert.ReferenceIdeal.Gen Cert.ReferenceIdeal.Value Cert.SegNorm
open Idealize.ShloMosaic Idealize.ShloMosaic.TcCoe Idealize.SL.Sem

variable {F : FTy → Type} [FloatOps F]

theorem segAdd_eq : scatter_S512_S200000x1_S200000_n_0_0_1 = segAddDims := rfl
theorem take_eq : gather_S512_S200000x1_S200000_n_0_n_n_0_1_1 = takeDims := rfl

/-- The first result is `sOut` of the arguments. -/
theorem out0_eq (m : (ℓ : Loc nD τ sig) → Buf (Elt F) ℓ) (c : Dev nD) :
    res_out0 m c = sOut (m ((c.tc : Thread nD τ).loc main_arg0)) (m ((c.tc : Thread nD τ).loc main_arg2))
      (m ((c.tc : Thread nD τ).loc main_arg3)) (m ((c.tc : Thread nD τ).loc main_arg4)) := by
  show res_main_v48 m c = _
  unfold res_main_v48
  rw [segAdd_eq, take_eq]
  rfl

/-- The reference's run with both results at the specification's terms, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = sOut (m ((c.tc : Thread nD τ).loc main_arg0)) (m ((c.tc : Thread nD τ).loc main_arg2))
        (m ((c.tc : Thread nD τ).loc main_arg3)) (m ((c.tc : Thread nD τ).loc main_arg4))
      ∧ r.2.mem ((c.tc : Thread nD τ).loc main_v69) = vOut (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (out0_eq m c),
      (h c).2.1.trans (by rw [segAdd_eq, take_eq]; rfl), (h c).2.2⟩) (Value.run m ρ)

end Cert.ReferenceIdeal.RefValue

end
-- ==== Proof.Finite.lean ====
/-
  Under the precondition every feature `s n k` is a real number: the precondition is the conjunction of four
  "all entries have absolute value below +∞" tests, and an extended real whose absolute value is below +∞ is real.
-/
import proofs.«115249_j37254546325938_1_alg».proof.Proof.Columns
import proofs.«115249_j37254546325938_1_alg».proof.Pre_finite_inputs
import Idealize.ShloMosaic.Lib.ReduceAll
import Idealize.ShloMosaic.PureOps.Ideal.Laws

noncomputable section

namespace Cert.SegNorm

open Idealize.ShloMosaic Idealize.ShloMosaic.ValueIdx

/-- The rank-0 shape has one index. -/
private theorem subsingleton_scalar_idx : Subsingleton Cert.Pre_finite_inputs.S_.Idx :=
  ⟨fun a b => funext fun d => d.elim0⟩

/-- The float +∞ is the top extended real. -/
private theorem inf_eq_top : Ideal.ofBits .f32 0x7F800000#32 = (⊤ : EReal) := by
  simp [Ideal.ofBits, Ideal.ieee]

/-- An extended real whose absolute value `max x (-x)` is below +∞ is a real number. -/
private theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The precondition makes the first argument's entries real. -/
theorem real_of_pre [Cert.Pre_finite_inputs.Facts] (a0 : FVec Ideal NodesChan .f32) (a1 : FVec Ideal NodesVec .f32)
    (a2 : IVec Nodes 32) (a3 a4 : FVec Ideal Chan .f32)
    (h : Cert.Pre_finite_inputs.fn (F := Ideal) a0 a1 a2 a3 a4 = fun _ => 1#1) : AllReal a0 := by
  intro i
  have h0 := congrFun h ValueIdx.ix0
  dsimp only [Cert.Pre_finite_inputs.fn, Cert.Pre_finite_inputs.fn_part1] at h0
  obtain ⟨h13, -⟩ := IntOp.andi_eq_one.1 h0
  obtain ⟨h8, -⟩ := IntOp.andi_eq_one.1 h13
  obtain ⟨h3, -⟩ := IntOp.andi_eq_one.1 h8
  haveI := subsingleton_scalar_idx
  have hi := Host.reduce_andi_all _ _ _ _ _ h3 i
  apply real_of_abs_lt_top
  rw [← inf_eq_top]
  exact hi

end Cert.SegNorm

end
-- ==== Proof.lean ====
/-
  Graph-wise normalisation of node features: the kernel program against the reference.

  Both programs compute, for 200000 nodes assigned to 512 graphs by `index`,
      s_out n k   = ((s n k - μ n) / σ² n) · w k + b k,        v_out n r k = v n r k / ν n,
  with `μ` the mean over a node's graph of the row means of `s`, `σ²` the graph's mean squared centred feature floored
  at ε, and `ν` the graph's mean squared vector norm floored at ε (Proof/Spec.lean states these as terms).
  The reference computes them operation by operation (Proof/RefValue.lean).  The kernel program makes the row means in a
  first blocked pass over the rows (Proof/Region0Value.lean), forms the per-graph statistics between the passes
  (Proof/HostChain.lean) and applies them in a second blocked pass (Proof/Region1Value.lean); it gets the variance from
  `mean(s²) - 2·μ·mean(s) + μ²`, which is `mean((s - μ)²)` because the features and `μ` are real numbers under the
  precondition (Proof/Variance.lean, Proof/Finite.lean).  Proof/KernelValue.lean composes the kernel side;
  Proof/KernelRun.lean is the kernel program's run with its two results named.
-/
import proofs.«115249_j37254546325938_1_alg».proof.Defs
import proofs.«115249_j37254546325938_1_alg».proof.Proof.Gen.Kernel
import proofs.«115249_j37254546325938_1_alg».proof.Proof.Gen.Kernel.Skeleton
import proofs.«115249_j37254546325938_1_alg».proof.Proof.Gen.Kernel.Launch
import proofs.«115249_j37254546325938_1_alg».proof.Proof.Gen.Kernel.Points
import proofs.«115249_j37254546325938_1_alg».proof.Proof.Gen.Kernel.Frame
import proofs.«115249_j37254546325938_1_alg».proof.Proof.Gen.KernelIdeal
import proofs.«115249_j37254546325938_1_alg».proof.Proof.Gen.KernelIdeal.Skeleton
import proofs.«115249_j37254546325938_1_alg».proof.Proof.Gen.KernelIdeal.Launch
import proofs.«115249_j37254546325938_1_alg».proof.Proof.Gen.KernelIdeal.Points
import proofs.«115249_j37254546325938_1_alg».proof.Proof.Gen.KernelIdeal.Frame
import proofs.«115249_j37254546325938_1_alg».proof.Proof.Gen.ReferenceIdeal
import proofs.«115249_j37254546325938_1_alg».proof.Proof.Gen.ReferenceIdeal.Run
import proofs.«115249_j37254546325938_1_alg».proof.Proof.Gen.ReferenceIdeal.Read
import proofs.«115249_j37254546325938_1_alg».proof.Proof.Gen.Pre_finite_inputs
import proofs.«115249_j37254546325938_1_alg».proof.Proof.KernelRun
import proofs.«115249_j37254546325938_1_alg».proof.Proof.KernelValue
import proofs.«115249_j37254546325938_1_alg».proof.Proof.RefValue
import proofs.«115249_j37254546325938_1_alg».proof.Proof.Finite
import Idealize.ShloMosaic.Adequacy
import Idealize.ShloMosaic.Init

noncomputable section

namespace Cert.Proof

open Idealize.ShloMosaic Idealize.ShloMosaic.TcCoe Idealize.SL.Sem Cert.SegNorm

/-- The kernel program, as printed, runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the results dropped. -/
theorem frame_referenceIdeal : Cert.frame_ReferenceIdeal := fun m ρ _ =>
  (θ_run Cert.ReferenceIdeal.defs _ _).mono (fun _ h c => (h c).2.2) (Cert.ReferenceIdeal.RefValue.run (F := Ideal) m ρ)

/-- From memories that agree on the arguments both idealized programs end with `sOut` and `vOut` of those arguments. -/
theorem algebraic : Cert.algebraic_KernelIdeal_ReferenceIdeal := by
  intro m ρ m' ρ' hpre hagree
  refine ⟨fun c => sOut (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => vOut (F := Ideal) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.GenRun.run_results (F := Ideal) m ρ)
    obtain ⟨h0, h1, hargs⟩ := h c
    exact ⟨h0.trans (Cert.KernelIdeal.KValue.out0 m ρ c (real_of_pre _ _ _ _ _ (hpre c))),
      h1.trans (Cert.KernelIdeal.KValue.out1 m ρ c), hargs⟩
  · refine (θ_run Cert.ReferenceIdeal.defs _ _).mono (fun r h c => ?_) (Cert.ReferenceIdeal.RefValue.run (F := Ideal) m' ρ')
    obtain ⟨h0, h1, hargs⟩ := h c
    obtain ⟨a0, a1, a2, a3, a4⟩ := hagree c
    exact ⟨h0.trans (by rw [a0, a2, a3, a4]), h1.trans (by rw [a1, a2]), hargs⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
